-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S524288 : Shape := ⟨1, ![524288]⟩
abbrev S1000x128 : Shape := ⟨2, ![1000, 128]⟩
abbrev S1 : Shape := ⟨1, ![1]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S524288x128 .f32) (main_arg1 : IVec S524288 32) (main_arg2 : FVec F S1000x128 .f32) (main_arg3 : FVec F S1 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S1000x128 .f32 := Host.absf main_arg2
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S524288x128 : Shape := ⟨2, ![524288, 128]⟩
abbrev S524288 : Shape := ⟨1, ![524288]⟩
abbrev S1000x128 : Shape := ⟨2, ![1000, 128]⟩
abbrev S1 : Shape := ⟨1, ![1]⟩
abbrev S2x1024x128 : Shape := ⟨3, ![2, 1024, 128]⟩
abbrev S2x1024x1 : Shape := ⟨3, ![2, 1024, 1]⟩
abbrev S4096x128 : Shape := ⟨2, ![4096, 128]⟩
abbrev S4096 : Shape := ⟨1, ![4096]⟩
abbrev S1x1024x128 : Shape := ⟨3, ![1, 1024, 128]⟩
abbrev S1x1024x1 : Shape := ⟨3, ![1, 1024, 1]⟩
abbrev S1024x256 : Shape := ⟨2, ![1024, 256]⟩
abbrev S1x1024 : Shape := ⟨2, ![1, 1024]⟩
abbrev S4096x1 : Shape := ⟨2, ![4096, 1]⟩
abbrev S4096x1024 : Shape := ⟨2, ![4096, 1024]⟩
abbrev S4096x256 : Shape := ⟨2, ![4096, 256]⟩
abbrev S1024x128 : Shape := ⟨2, ![1024, 128]⟩
abbrev S1024x1 : Shape := ⟨2, ![1024, 1]⟩
abbrev S_ : Shape := ⟨0, ![]⟩
abbrev S1000x1 : Shape := ⟨2, ![1000, 1]⟩
abbrev S1000 : Shape := ⟨1, ![1000]⟩

abbrev nBuf : Space → Nat
  | .hbm => 33
  | .vmem => 9
  | .smem => 0
  | _ => 0

abbrev bufTy : (tb : Table) → Fin (tcTables nBuf tb) → BufTy
  | .hbm, ⟨0, _⟩ => ⟨S524288x128, .f32⟩
  | .hbm, ⟨1, _⟩ => ⟨S524288, .i32⟩
  | .hbm, ⟨2, _⟩ => ⟨S1000x128, .f32⟩
  | .hbm, ⟨3, _⟩ => ⟨S1, .f32⟩
  | .hbm, ⟨4, _⟩ => ⟨S2x1024x128, .f32⟩
  | .hbm, ⟨5, _⟩ => ⟨S2x1024x1, .f32⟩
  | .hbm, ⟨6, _⟩ => ⟨S_, .f32⟩
  | .hbm, ⟨7, _⟩ => ⟨S1024x128, .f32⟩
  | .hbm, ⟨8, _⟩ => ⟨S1000x128, .f32⟩
  | .hbm, ⟨9, _⟩ => ⟨S_, .f32⟩
  | .hbm, ⟨10, _⟩ => ⟨S1024x1, .f32⟩
  | .hbm, ⟨11, _⟩ => ⟨S1000x1, .f32⟩
  | .hbm, ⟨12, _⟩ => ⟨S1000, .f32⟩
  | .hbm, ⟨13, _⟩ => ⟨S_, .f32⟩
  | .hbm, ⟨14, _⟩ => ⟨S1000, .f32⟩
  | .hbm, ⟨15, _⟩ => ⟨S1000, .i1⟩
  | .hbm, ⟨16, _⟩ => ⟨S_, .f32⟩
  | .hbm, ⟨17, _⟩ => ⟨S1000, .f32⟩
  | .hbm, ⟨18, _⟩ => ⟨S1000, .f32⟩
  | .hbm, ⟨19, _⟩ => ⟨S1000x1, .f32⟩
  | .hbm, ⟨20, _⟩ => ⟨S1000x128, .f32⟩
  | .hbm, ⟨21, _⟩ => ⟨S1000x128, .f32⟩
  | .hbm, ⟨22, _⟩ => ⟨S_, .f32⟩
  | .hbm, ⟨23, _⟩ => ⟨S1000x128, .f32⟩
  | .hbm, ⟨24, _⟩ => ⟨S1000x128, .f32⟩
  | .hbm, ⟨25, _⟩ => ⟨S1000x128, .f32⟩
  | .hbm, ⟨26, _⟩ => ⟨S_, .f32⟩
  | .hbm, ⟨27, _⟩ => ⟨S_, .f32⟩
  | .hbm, ⟨28, _⟩ => ⟨S1000x128, .f32⟩
  | .hbm, ⟨29, _⟩ => ⟨S1000x128, .f32⟩
  | .hbm, ⟨30, _⟩ => ⟨S1000x1, .i1⟩
  | .hbm, ⟨31, _⟩ => ⟨S1000x128, .i1⟩
  | .hbm, ⟨32, _⟩ => ⟨S1000x128, .f32⟩
  | .local _ .vmem, ⟨0, _⟩ => ⟨S4096x128, .f32⟩
  | .local _ .vmem, ⟨1, _⟩ => ⟨S4096x128, .f32⟩
  | .local _ .vmem, ⟨2, _⟩ => ⟨S4096, .i32⟩
  | .local _ .vmem, ⟨3, _⟩ => ⟨S4096, .i32⟩
  | .local _ .vmem, ⟨4, _⟩ => ⟨S1x1024x128, .f32⟩
  | .local _ .vmem, ⟨5, _⟩ => ⟨S1x1024x128, .f32⟩
  | .local _ .vmem, ⟨6, _⟩ => ⟨S1x1024x1, .f32⟩
  | .local _ .vmem, ⟨7, _⟩ => ⟨S1x1024x1, .f32⟩
  | .local _ .vmem, ⟨8, _⟩ => ⟨S1024x256, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v22 : BitVec 1 := Scalar.cmpi .eq arg1 c63_i32
  let v23 : BitVec 32 := Scalar.extui v22
  let c0_i32_8 : BitVec 32 := 0#32
  let v24 : BitVec 1 := Scalar.cmpi .ne v23 c0_i32_8
  v24

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  ![v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S4096_S4096_0 : ∀ a, (![0] : Fin 1 → Nat) a + S4096.size a ≤ S4096.size a
  h_S4096 : 0 < S4096.numel
  iota_S1x1024_d1_w32 : S1x1024.Iotas .tc 32 [1]
  shapeCasts_S4096_S4096x1 : S4096.ShapeCasts S4096x1
  broadcasts_S4096x1_S4096x1024 : S4096x1.Broadcasts S4096x1024
  broadcasts_S1x1024_S4096x1024 : S1x1024.Broadcasts S4096x1024
  natLt_1_32 : 1 < 32
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  concatenates_S4096x128_S4096x128_S4096x256_d1 : Shape.Concatenates [S4096x128, S4096x128] S4096x256 1
  inb_S1024x256_S1024x128_0_0 : ∀ a, (![0, 0] : Fin 2 → Nat) a + S1024x128.size a ≤ S1024x256.size a
  h_S1024x128 : 0 < S1024x128.numel
  shapeCasts_S1024x128_S1x1024x128 : S1024x128.ShapeCasts S1x1024x128
  inb_S1x1024x128_S1x1024x128_0_0_0 : ∀ a, (![0, 0, 0] : Fin 3 → Nat) a + S1x1024x128.size a ≤ S1x1024x128.size a
  h_S1x1024x128 : 0 < S1x1024x128.numel
  inb_S1024x256_S1024x1_0_128 : ∀ a, (![0, 128] : Fin 2 → Nat) a + S1024x1.size a ≤ S1024x256.size a
  h_S1024x1 : 0 < S1024x1.numel
  shapeCasts_S1024x1_S1x1024x1 : S1024x1.ShapeCasts S1x1024x1
  inb_S1x1024x1_S1x1024x1_0_0_0 : ∀ a, (![0, 0, 0] : Fin 3 → Nat) a + S1x1024x1.size a ≤ S1x1024x1.size a
  h_S1x1024x1 : 0 < S1x1024x1.numel
  reducesTo_S2x1024x128_S1024x128_d0 : S2x1024x128.ReducesTo [0] S1024x128
  h_S_ : 0 < S_.numel
  slices_S1024x128_S1000x128_0_0 : S1024x128.Slices ![0, 0] S1000x128
  reducesTo_S2x1024x1_S1024x1_d0 : S2x1024x1.ReducesTo [0] S1024x1
  slices_S1024x1_S1000x1_0_0 : S1024x1.Slices ![0, 0] S1000x1
  shapeCasts_S1000x1_S1000 : S1000x1.ShapeCasts S1000
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  shapeCasts_S1_S_ : S1.ShapeCasts S_
  bcast_S_S1000x128 : S_.BroadcastsInDim S1000x128 (![] : Fin 0 → Fin S1000x128.rank)
  dot_S4096x1024_S4096x256_S1024x256_0_0_1_1_n_n_wf : DotDims.WF S4096x1024 S4096x256 S1024x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S524288x128.size a
  hwx0_0 : ∀ i : grid0.Coords, EltTy.bits .f32 = 32 ∨ (Rect.block (s := S524288x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S524288.size a
  hwx0_1 : ∀ i : grid0.Coords, EltTy.bits .i32 = 32 ∨ (Rect.block (s := S524288) S4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S2x1024x128.size a
  hwx0_2 : ∀ i : grid0.Coords, EltTy.bits .f32 = 32 ∨ (Rect.block (s := S2x1024x128) S1x1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1.size a ≤ S2x1024x1.size a
  hwx0_3 : ∀ i : grid0.Coords, EltTy.bits .f32 = 32 ∨ (Rect.block (s := S2x1024x1) S1x1024x1.size (cc0_transform_3 i) (hinb0_3 i)).WholeWords (EltTy.packing .f32)

variable [Facts₀]

def dot_S4096x1024_S4096x256_S1024x256_0_0_1_1_n_n : DotDims S4096x1024 S4096x256 S1024x256 where
  lhsContracting := [0]
  rhsContracting := [0]
  lhsNonContracting := [1]
  rhsNonContracting := [1]
  lhsBatch := []
  rhsBatch := []
  wf := dot_S4096x1024_S4096x256_S1024x256_0_0_1_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1024x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S524288x128 : Shape := ⟨2, ![524288, 128]⟩
abbrev S524288 : Shape := ⟨1, ![524288]⟩
abbrev S1000x128 : Shape := ⟨2, ![1000, 128]⟩
abbrev S1 : Shape := ⟨1, ![1]⟩
abbrev S_ : Shape := ⟨0, ![]⟩
abbrev S1000 : Shape := ⟨1, ![1000]⟩
abbrev S524288x1 : Shape := ⟨2, ![524288, 1]⟩
abbrev S1000x1 : Shape := ⟨2, ![1000, 1]⟩

abbrev nBuf : Space → Nat
  | .hbm => 34
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S524288, .i32⟩
  | .hbm, ⟨2, _⟩ => ⟨S1000x128, .f32⟩
  | .hbm, ⟨3, _⟩ => ⟨S1, .f32⟩
  | .hbm, ⟨4, _⟩ => ⟨S_, .f32⟩
  | .hbm, ⟨5, _⟩ => ⟨S524288, .f32⟩
  | .hbm, ⟨6, _⟩ => ⟨S_, .f32⟩
  | .hbm, ⟨7, _⟩ => ⟨S1000, .f32⟩
  | .hbm, ⟨8, _⟩ => ⟨S524288x1, .i32⟩
  | .hbm, ⟨9, _⟩ => ⟨S1000, .f32⟩
  | .hbm, ⟨10, _⟩ => ⟨S_, .f32⟩
  | .hbm, ⟨11, _⟩ => ⟨S1000x128, .f32⟩
  | .hbm, ⟨12, _⟩ => ⟨S524288x1, .i32⟩
  | .hbm, ⟨13, _⟩ => ⟨S1000x128, .f32⟩
  | .hbm, ⟨14, _⟩ => ⟨S_, .f32⟩
  | .hbm, ⟨15, _⟩ => ⟨S1000, .f32⟩
  | .hbm, ⟨16, _⟩ => ⟨S1000, .i1⟩
  | .hbm, ⟨17, _⟩ => ⟨S_, .f32⟩
  | .hbm, ⟨18, _⟩ => ⟨S1000, .f32⟩
  | .hbm, ⟨19, _⟩ => ⟨S1000, .f32⟩
  | .hbm, ⟨20, _⟩ => ⟨S1000x1, .f32⟩
  | .hbm, ⟨21, _⟩ => ⟨S1000x128, .f32⟩
  | .hbm, ⟨22, _⟩ => ⟨S1000x128, .f32⟩
  | .hbm, ⟨23, _⟩ => ⟨S_, .f32⟩
  | .hbm, ⟨24, _⟩ => ⟨S1000x128, .f32⟩
  | .hbm, ⟨25, _⟩ => ⟨S1000x128, .f32⟩
  | .hbm, ⟨26, _⟩ => ⟨S1000x128, .f32⟩
  | .hbm, ⟨27, _⟩ => ⟨S_, .f32⟩
  | .hbm, ⟨28, _⟩ => ⟨S_, .f32⟩
  | .hbm, ⟨29, _⟩ => ⟨S1000x128, .f32⟩
  | .hbm, ⟨30, _⟩ => ⟨S1000x128, .f32⟩
  | .hbm, ⟨31, _⟩ => ⟨S1000x1, .i1⟩
  | .hbm, ⟨32, _⟩ => ⟨S1000x128, .i1⟩
  | .hbm, ⟨33, _⟩ => ⟨S1000x128, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S_S1000 : S_.BroadcastsInDim S1000 (![] : Fin 0 → Fin S1000.rank)
  bcast_S524288_S524288x1_0 : S524288.BroadcastsInDim S524288x1 (![0] : Fin 1 → Fin S524288x1.rank)
  bcast_S_S1000x128 : S_.BroadcastsInDim S1000x128 (![] : Fin 0 → Fin S1000x128.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  shapeCasts_S1_S_ : S1.ShapeCasts S_
  scatter_S1000_S524288x1_S524288_n_0_0_1_wf : ScatterDims.WF S1000 S524288x1 S524288 [] [0] [0] 1
  scatter_S1000x128_S524288x1_S524288x128_1_0_0_1_wf : ScatterDims.WF S1000x128 S524288x1 S524288x128 [1] [0] [0] 1

variable [Facts₀]

def scatter_S1000_S524288x1_S524288_n_0_0_1 : ScatterDims S1000 S524288x1 S524288 where
  updateWindowDims := []
  insertedWindowDims := [0]
  scatterDimsToOperandDims := [0]
  indexVectorDim := 1
  wf := scatter_S1000_S524288x1_S524288_n_0_0_1_wf
def scatter_S1000x128_S524288x1_S524288x128_1_0_0_1 : ScatterDims S1000x128 S524288x1 S524288x128 where
  updateWindowDims := [1]
  insertedWindowDims := [0]
  scatterDimsToOperandDims := [0]
  indexVectorDim := 1
  wf := scatter_S1000x128_S524288x1_S524288x128_1_0_0_1_wf

class Facts : Prop extends Facts₀ where

variable [Facts]
-- ==== Proof.Spec.lean ====
/-
  Per-class sums and counts of labelled samples, as plain sums.

  There are 524288 samples, each a row of 128 numbers, and each carries a label word.  Class r collects the
  samples whose label word is r.  The samples are handled in 128 blocks of 4096 consecutive rows; block b
  holds rows b·4096 … b·4096 + 4095.  Every row is widened to 256 columns by a block of ones, so that one
  weighted sum over a block's rows, with weight one on the rows labelled r and zero on the others, gives in
  its first 128 columns the sum of those rows and in the other columns their number.

  Two workers share the blocks: the first takes blocks 0 … 63, the second blocks 64 … 127, each adding its
  blocks one after the other into an accumulator that starts at zero with the worker's first block.  After
  point t the accumulator holds the blocks from the worker's first one up to t.  The two workers' last
  accumulators, added, are the weighted sum over all 524288 rows: the blocks of both workers are all the
  blocks, and the rows of all blocks are all the rows, each once.  Only commutativity and associativity of
  addition on the extended reals are used, so no finiteness is needed.
-/
import Idealize.ShloMosaic.PureOps.Ideal
import Idealize.ShloMosaic.Lib.ValueIdx
import Mathlib.Algebra.BigOperators.Fin
import Mathlib.Algebra.BigOperators.Group.Finset.Basic
import Mathlib.Logic.Equiv.Fin.Basic

noncomputable section

open scoped BigOperators

namespace Cert.Centers

open Idealize.ShloMosaic Idealize.ShloMosaic.ValueIdx

/-- The weight of the label word `w` on class `r`: one when the word is `r`, zero otherwise. -/
def hot (w : BitVec 32) (r : ℕ) : EReal := if w = BitVec.ofNat 32 r then 1 else 0

/-- Row `n` of the samples widened by ones: column `q` of the sample for `q < 128`, one beyond. -/
def aug (X : (⟨2, ![524288, 128]⟩ : Shape).Idx → EReal) (n : Fin 524288) (q : Fin 256) : EReal :=
  if h : q.val < 128 then X (ix2 n ⟨q.val, h⟩) else 1

/-- Row `k` of block `b`, numbered among all rows. -/
def row (b : Fin 128) (k : Fin 4096) : Fin 524288 := ⟨b.val * 4096 + k.val, by have := b.isLt; have := k.isLt; omega⟩

/-- Block `b`'s weighted sum for class `r` at column `q`. -/
def blockSum (X : (⟨2, ![524288, 128]⟩ : Shape).Idx → EReal) (Y : (⟨1, ![524288]⟩ : Shape).Idx → BitVec 32)
    (b : Fin 128) (r : Fin 1024) (q : Fin 256) : EReal :=
  ∑ k : Fin 4096, hot (Y (ix1 (row b k))) r.val * aug X (row b k) q

/-- The blocks a worker has added by point `t`: from its first block, 64·(t / 64), up to `t`. -/
def upTo (t : ℕ) : Finset (Fin 128) := Finset.univ.filter fun b => 64 * (t / 64) ≤ b.val ∧ b.val ≤ t

/-- The accumulator after point `t`. -/
def acc (X : (⟨2, ![524288, 128]⟩ : Shape).Idx → EReal) (Y : (⟨1, ![524288]⟩ : Shape).Idx → BitVec 32)
    (t : ℕ) (r : Fin 1024) (q : Fin 256) : EReal :=
  ∑ b ∈ upTo t, blockSum X Y b r q

/-- At a worker's first point the blocks added are that one block. -/
theorem upTo_first {t : ℕ} (ht : t < 128) (h : t % 64 = 0) : upTo t = {⟨t, ht⟩} := by
  ext b
  simp only [upTo, Finset.mem_filter, Finset.mem_univ, true_and, Finset.mem_singleton, Fin.ext_iff]
  omega

/-- At a later point the blocks added are the ones added before and this one, which is new. -/
theorem upTo_next {t : ℕ} (ht : t < 128) (h : ¬ t % 64 = 0) :
    upTo t = insert ⟨t, ht⟩ (upTo (t - 1)) ∧ (⟨t, ht⟩ : Fin 128) ∉ upTo (t - 1) := by
  constructor
  · ext b
    simp only [upTo, Finset.mem_filter, Finset.mem_univ, true_and, Finset.mem_insert, Fin.ext_iff]
    omega
  · simp only [upTo, Finset.mem_filter, Finset.mem_univ, true_and]
    omega

theorem acc_first (X : (⟨2, ![524288, 128]⟩ : Shape).Idx → EReal) (Y : (⟨1, ![524288]⟩ : Shape).Idx → BitVec 32)
    {t : ℕ} (ht : t < 128) (h : t % 64 = 0) (r : Fin 1024) (q : Fin 256) :
    acc X Y t r q = blockSum X Y ⟨t, ht⟩ r q := by
  unfold acc
  rw [upTo_first ht h, Finset.sum_singleton]

theorem acc_next (X : (⟨2, ![524288, 128]⟩ : Shape).Idx → EReal) (Y : (⟨1, ![524288]⟩ : Shape).Idx → BitVec 32)
    {t : ℕ} (ht : t < 128) (h : ¬ t % 64 = 0) (r : Fin 1024) (q : Fin 256) :
    acc X Y t r q = acc X Y (t - 1) r q + blockSum X Y ⟨t, ht⟩ r q := by
  unfold acc
  rw [(upTo_next ht h).1, Finset.sum_insert (upTo_next ht h).2, add_comm]

/-- A worker's last accumulator holds its 64 blocks. -/
theorem upTo_last (cc : Fin 2) : upTo (cc.val * 64 + 63) = Finset.univ.filter fun b : Fin 128 => b.val / 64 = cc.val := by
  ext b
  simp only [upTo, Finset.mem_filter, Finset.mem_univ, true_and]
  have := cc.isLt
  have := b.isLt
  omega

/-- All rows, block after block. -/
theorem sum_rows {M : Type*} [AddCommMonoid M] (Φ : Fin 524288 → M) :
    ∑ n : Fin 524288, Φ n = ∑ b : Fin 128, ∑ k : Fin 4096, Φ (row b k) := by
  rw [← Fintype.sum_prod_type', ← Equiv.sum_comp (finProdFinEquiv (m := 128) (n := 4096))]
  refine Finset.sum_congr rfl fun p _ => congrArg Φ (Fin.ext ?_)
  rw [finProdFinEquiv_apply_val]
  show p.2.val + 4096 * p.1.val = p.1.val * 4096 + p.2.val
  omega

/-- The two workers' last accumulators, added, are the weighted sum over all rows. -/
theorem acc_total (X : (⟨2, ![524288, 128]⟩ : Shape).Idx → EReal) (Y : (⟨1, ![524288]⟩ : Shape).Idx → BitVec 32)
    (r : Fin 1024) (q : Fin 256) :
    ∑ cc : Fin 2, acc X Y (cc.val * 64 + 63) r q = ∑ n : Fin 524288, hot (Y (ix1 n)) r.val * aug X n q := by
  rw [sum_rows]
  show ∑ cc : Fin 2, acc X Y (cc.val * 64 + 63) r q = ∑ b : Fin 128, blockSum X Y b r q
  unfold acc
  simp only [upTo_last]
  rw [← Finset.sum_fiberwise (s := (Finset.univ : Finset (Fin 128))) (g := fun b : Fin 128 => (⟨b.val / 64, by have := b.isLt; omega⟩ : Fin 2))
    (f := fun b => blockSum X Y b r q)]
  refine Finset.sum_congr rfl fun cc _ => Finset.sum_congr ?_ fun _ _ => rfl
  ext b
  simp only [Finset.mem_filter, Finset.mem_univ, true_and, Fin.ext_iff]

end Cert.Centers

end
-- ==== Proof.Pieces.lean ====
/-
  What each case of the body leaves behind, as a function of what it found.

  The body keeps a 1024 × 256 accumulator.  At a worker's first point it fills the accumulator with
  zeros, reads it back, and stores the zeros plus the block's weighted sums; at every other point it stores
  what the point before left plus the block's weighted sums.  At a worker's last point it also copies the
  accumulator's first 128 columns into the first result's block and its column 128 into the second result's
  block, both read after the accumulator's store, so both copies are of the updated accumulator.
-/
import proofs.«404732_j30829275250754_3_alg».proof.Proof.Gen.KernelIdeal.Frame
import Idealize.ShloMosaic.Lib.Pipeline.Value
import Idealize.ShloMosaic.Lib.ValueIdx

set_option maxRecDepth 16384

noncomputable section

namespace Cert.KernelIdeal.Pieces

open Idealize.ShloMosaic Idealize.ShloMosaic.TcCoe Idealize.ShloMosaic.Tactic
open Idealize.SL Idealize.SL.Sem
open Cert.KernelIdeal Cert.KernelIdeal.Gen

variable {F : FTy → Type} [FloatOps F]

theorem zeros2 : (![0, 0] : Fin 2 → Nat) = fun _ => 0 := by
  funext a; fin_cases a <;> rfl

theorem zeros3 : (![0, 0, 0] : Fin 3 → Nat) = fun _ => 0 := by
  funext a; fin_cases a <;> rfl

theorem zeros1 : (![0] : Fin 1 → Nat) = fun _ => 0 := by
  funext a; fin_cases a; rfl

/-- The accumulator's first 128 columns. -/
def left (w : Vec F S1024x256 .f32) : Vec F S1024x128 .f32 :=
  fun j => w ((Rect.unit (s := S1024x256) ![0, 0] S1024x128.size inb_S1024x256_S1024x128_0_0).toLoadRect.idx j)

/-- The accumulator's column 128. -/
def mid (w : Vec F S1024x256 .f32) : Vec F S1024x1 .f32 :=
  fun j => w ((Rect.unit (s := S1024x256) ![0, 128] S1024x1.size inb_S1024x256_S1024x1_0_128).toLoadRect.idx j)

/-- A worker's first point leaves the zeros plus the block's weighted sums. -/
theorem sout_A (c : Dev nD) (i : grid0.Coords) (arg2 : Memref sig .tc .vmem S4096x128 .f32) (harg2 : arg2.IsWhole) (arg3 : Memref sig .tc .vmem S4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x256 .f32) (harg6 : arg6.IsWhole) (hc0 : cond0_0 i) (hc1 : ¬cond0_1 i)
    (x0 : Vec F S4096x128 .f32) (x1 : Vec F S4096 .i32) :
    sout0_A_0 c i arg2 harg2 arg3 harg3 arg4 harg4 arg5 harg5 arg6 harg6 hc0 hc1 x0 x1 = k0_pay2 x1 x0 (k0_pay1 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S1024x256) zeros2]
  simp only [View.readAt_eq_ld, harg2.read_unread, harg3.read_unread, View.ld_unit_zero (S := S4096x128) zeros2,
    View.ld_unit_zero (S := S4096) zeros1, View.readCov_unit_zero (S := S1024x256) _ zeros2]

/-- A middle point leaves what the point before left plus the block's weighted sums. -/
theorem sout_B (c : Dev nD) (i : grid0.Coords) (arg2 : Memref sig .tc .vmem S4096x128 .f32) (harg2 : arg2.IsWhole) (arg3 : Memref sig .tc .vmem S4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x256 .f32) (harg6 : arg6.IsWhole) (hc0 : ¬cond0_0 i) (hc1 : ¬cond0_1 i)
    (x0 : Vec F S4096x128 .f32) (x1 : Vec F S4096 .i32) (xs0 : Vec F S1024x256 .f32) :
    sout0_B_0 c i arg2 harg2 arg3 harg3 arg4 harg4 arg5 harg5 arg6 harg6 hc0 hc1 x0 x1 xs0 = k0_pay2 x1 x0 xs0 := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  sl_unfold_words
  rw [View.canon_unit_zero (S := S1024x256) zeros2]
  simp only [View.readAt_eq_ld, harg2.read_unread, harg3.read_unread, harg6.read_unread, View.ld_unit_zero (S := S4096x128) zeros2,
    View.ld_unit_zero (S := S4096) zeros1, View.ld_unit_zero (S := S1024x256) zeros2]

/-- So does a worker's last point. -/
theorem sout_C (c : Dev nD) (i : grid0.Coords) (arg2 : Memref sig .tc .vmem S4096x128 .f32) (harg2 : arg2.IsWhole) (arg3 : Memref sig .tc .vmem S4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x256 .f32) (harg6 : arg6.IsWhole) (hc0 : ¬cond0_0 i) (hc1 : cond0_1 i)
    (x0 : Vec F S4096x128 .f32) (x1 : Vec F S4096 .i32) (xs0 : Vec F S1024x256 .f32) :
    sout0_C_0 c i arg2 harg2 arg3 harg3 arg4 harg4 arg5 harg5 arg6 harg6 hc0 hc1 x0 x1 xs0 = k0_pay2 x1 x0 xs0 := by
  unfold sout0_C_0
  rw [View.read_writes_eq_canon _ _ _ (scover0_C_0 c i arg2 harg2 arg3 harg3 arg4 harg4 arg5 harg5 arg6 harg6 hc0 hc1 x0 x1 xs0)]
  unfold kernelRun0_C
  dsimp only
  sl_unfold_words
  rw [View.canon_unit_zero (S := S1024x256) zeros2]
  simp only [View.readAt_eq_ld, harg2.read_unread, harg3.read_unread, harg6.read_unread, View.ld_unit_zero (S := S4096x128) zeros2,
    View.ld_unit_zero (S := S4096) zeros1, View.ld_unit_zero (S := S1024x256) zeros2]

/-- A worker's last point leaves in the first result's block the updated accumulator's first 128 columns. -/
theorem out_C_2 (c : Dev nD) (i : grid0.Coords) (arg2 : Memref sig .tc .vmem S4096x128 .f32) (harg2 : arg2.IsWhole) (arg3 : Memref sig .tc .vmem S4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x256 .f32) (harg6 : arg6.IsWhole) (hc0 : ¬cond0_0 i) (hc1 : cond0_1 i)
    (x0 : Vec F S4096x128 .f32) (x1 : Vec F S4096 .i32) (xs0 : Vec F S1024x256 .f32) :
    out0_C_2 c i arg2 harg2 arg3 harg3 arg4 harg4 arg5 harg5 arg6 harg6 hc0 hc1 x0 x1 xs0 = k0_pay3 (left (k0_pay2 x1 x0 xs0)) := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  sl_unfold_words
  rw [View.canon_unit_zero (S := S1x1024x128) zeros3]
  simp only [View.readAt_eq_ld, harg2.read_unread, harg3.read_unread, harg6.read_unread, View.ld_unit_zero (S := S4096x128) zeros2,
    View.ld_unit_zero (S := S4096) zeros1, View.ld_unit_zero (S := S1024x256) zeros2, View.readCov_eq_canon',
    View.canon_unit_zero (S := S1024x256) zeros2]
  rfl

/-- And in the second result's block the updated accumulator's column 128. -/
theorem out_C_3 (c : Dev nD) (i : grid0.Coords) (arg2 : Memref sig .tc .vmem S4096x128 .f32) (harg2 : arg2.IsWhole) (arg3 : Memref sig .tc .vmem S4096 .i32) (harg3 : arg3.IsWhole) (arg4 : Memref sig .tc .vmem S1x1024x128 .f32) (harg4 : arg4.IsWhole) (arg5 : Memref sig .tc .vmem S1x1024x1 .f32) (harg5 : arg5.IsWhole) (arg6 : Memref sig .tc .vmem S1024x256 .f32) (harg6 : arg6.IsWhole) (hc0 : ¬cond0_0 i) (hc1 : cond0_1 i)
    (x0 : Vec F S4096x128 .f32) (x1 : Vec F S4096 .i32) (xs0 : Vec F S1024x256 .f32) :
    out0_C_3 c i arg2 harg2 arg3 harg3 arg4 harg4 arg5 harg5 arg6 harg6 hc0 hc1 x0 x1 xs0 = k0_pay4 (mid (k0_pay2 x1 x0 xs0)) := by
  unfold out0_C_3
  rw [View.read_writes_eq_canon _ _ _ (cover0_C_3 c i arg2 harg2 arg3 harg3 arg4 harg4 arg5 harg5 arg6 harg6 hc0 hc1 x0 x1 xs0)]
  unfold kernelRun0_C
  dsimp only
  sl_unfold_words
  rw [View.canon_unit_zero (S := S1x1024x1) zeros3]
  simp only [View.readAt_eq_ld, harg2.read_unread, harg3.read_unread, harg6.read_unread, View.ld_unit_zero (S := S4096x128) zeros2,
    View.ld_unit_zero (S := S4096) zeros1, View.ld_unit_zero (S := S1024x256) zeros2, View.readCov_eq_canon',
    View.canon_unit_zero (S := S1024x256) zeros2]
  rfl

open Idealize.ShloMosaic.ValueIdx in
/-- Entry (r, e) of the first 128 columns is the accumulator's entry (r, e). -/
theorem left_apply (w : Vec F S1024x256 .f32) (r : Fin 1024) (e : Fin 128) :
    left w (ix2 r e) = w (ix2 r ⟨e.val, by have := e.isLt; omega⟩) := by
  unfold left
  refine congrArg w (funext fun a => Fin.ext ?_)
  match a with
  | ⟨0, _⟩ => show (0 : Nat) + 1 * r.val = r.val; omega
  | ⟨1, _⟩ => show (0 : Nat) + 1 * e.val = e.val; omega

open Idealize.ShloMosaic.ValueIdx in
/-- Entry (r, 0) of column 128 is the accumulator's entry (r, 128). -/
theorem mid_apply (w : Vec F S1024x256 .f32) (r : Fin 1024) (z : Fin 1) :
    mid w (ix2 r z) = w (ix2 r ⟨128, by decide⟩) := by
  unfold mid
  refine congrArg w (funext fun a => Fin.ext ?_)
  match a with
  | ⟨0, _⟩ => show (0 : Nat) + 1 * r.val = r.val; omega
  | ⟨1, _⟩ => show (128 : Nat) + 1 * z.val = 128; have := z.isLt; omega

end Cert.KernelIdeal.Pieces

end
-- ==== Proof.Payload.lean ====
/-
  The kernel's four stored values, read entry by entry.

  The value stored back into the accumulator is the accumulator plus a product of two matrices taken over
  their rows.  The first matrix has, at row k and class c, the weight one when row k's label word is the
  number c and zero otherwise: the label column and the row of class numbers are both spread to 4096 × 1024,
  compared for equality, and the one-bit answer is widened and read as a signed integer.  The second matrix
  is the block of samples with a block of ones set beside it: at column q it is the sample's column q for
  q < 128 and one beyond.  Narrowing to sixteen bits changes nothing on the extended reals.  The product
  contracts axis 0 of both matrices, so entry (r, q) of the result is the accumulator's entry plus the sum
  over the 4096 rows k of the weight of row k on class r times the widened sample's entry (k, q).

  The first stored value is the zero word everywhere.  The last two are a matrix given a leading axis of
  extent one: entry (u, r, e) is the matrix's entry (r, e).
-/
import proofs.«404732_j30829275250754_3_alg».proof.Proof.Gen.KernelIdeal.Skeleton
import proofs.«404732_j30829275250754_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen Cert.Centers
open scoped BigOperators

/-- A word compared for equality, widened and read as a signed integer, is one or zero. -/
theorem sitofp_eq_word (w v : BitVec 32) :
    (FloatOps.sitofp (F := Ideal) .f32 ((IntOp.cmpi .eq w v).setWidth 32) : Ideal .f32) = if w = v then 1 else 0 := by
  show (((((IntOp.cmpi .eq w v).setWidth 32).toInt : ℝ)) : EReal) = _
  by_cases h : w = v
  · subst h
    rw [if_pos rfl]
    have : (IntOp.cmpi .eq w w).setWidth 32 = 1#32 := by
      simp [IntOp.cmpi]
    rw [this]
    norm_num
  · rw [if_neg h]
    have : (IntOp.cmpi .eq w v).setWidth 32 = 0#32 := by
      simp [IntOp.cmpi, beq_eq_false_iff_ne.mpr h]
    rw [this]
    norm_num

/-- The label column, spread over the classes, reads the row's label at every class. -/
theorem labels_apply (y : IVec S4096 32) (k : Fin 4096) (c : Fin 1024) :
    broadcastTo S4096x1024 (shapeCast S4096x1 y shapeCasts_S4096_S4096x1) broadcasts_S4096x1_S4096x1024 (ix2 k c)
      = y (ix1 k) := by
  refine (broadcastTo_apply _ _ (ix2 k c) (ix2 k (0 : Fin 1)) fun ax => ?_).trans ?_
  · match ax with
    | ⟨0, _⟩ => rfl
    | ⟨1, _⟩ => rfl
  · refine shapeCast_apply y _ _ (ix1 k) ?_
    rw [Shape.rowMajor_val_two, Shape.rowMajor_val_one]
    show k.val = k.val * 1 + 0
    omega

/-- The class numbers, spread over the rows, read the class's number at every row. -/
theorem classes_apply (k : Fin 4096) (c : Fin 1024) :
    broadcastTo S4096x1024 (iota .tc S1x1024 32 [1] iota_S1x1024_d1_w32) broadcasts_S1x1024_S4096x1024 (ix2 k c)
      = BitVec.ofNat 32 c.val := by
  rw [broadcastTo_1b_ab_apply, iota_single_apply]

/-- The weight matrix at row k and class c: one when the row's label word is c, zero otherwise. -/
theorem onehot_apply (y : IVec S4096 32) (k : Fin 4096) (c : Fin 1024) :
    (truncf .bf16 (sitofp (F := Ideal) .f32 (extui 32 (cmpi .eq
        (broadcastTo S4096x1024 (shapeCast S4096x1 y shapeCasts_S4096_S4096x1) broadcasts_S4096x1_S4096x1024)
        (broadcastTo S4096x1024 (iota .tc S1x1024 32 [1] iota_S1x1024_d1_w32) broadcasts_S1x1024_S4096x1024))
        natLt_1_32)) bitsLt_bf16_f32 : FVec Ideal S4096x1024 .bf16) (ix2 k c)
      = hot (y (ix1 k)) c.val := by
  rw [truncf_apply, sitofp_apply, extui_apply]
  show FloatOps.sitofp (F := Ideal) .f32 ((IntOp.cmpi .eq
      (broadcastTo S4096x1024 (shapeCast S4096x1 y shapeCasts_S4096_S4096x1) broadcasts_S4096x1_S4096x1024 (ix2 k c))
      (broadcastTo S4096x1024 (iota .tc S1x1024 32 [1] iota_S1x1024_d1_w32) broadcasts_S1x1024_S4096x1024 (ix2 k c))).setWidth 32) = _
  rw [labels_apply, classes_apply, sitofp_eq_word]
  rfl

/-- The bf16 word 0x3F80 is one. -/
theorem one_bf16 : Ideal.ofBits .bf16 0x3F80#16 = 1 := IdealRules.sign_bit.ideal_onePat .bf16

/-- The samples widened by a block of ones, at row k and column q. -/
theorem widened_apply (x : FVec Ideal S4096x128 .f32) (k : Fin 4096) (q : Fin 256) :
    (concatenate S4096x256 1 [⟨S4096x128, (truncf .bf16 x bitsLt_bf16_f32 : FVec Ideal S4096x128 .bf16)⟩,
        ⟨S4096x128, (broadcast S4096x128 (Scalar.ofBits (F := Ideal) .bf16 0x3F80#16) : FVec Ideal S4096x128 .bf16)⟩]
        concatenates_S4096x128_S4096x128_S4096x256_d1 : FVec Ideal S4096x256 .bf16) (ix2 k q)
      = if h : q.val < 128 then x (ix2 k ⟨q.val, h⟩) else 1 := by
  by_cases h : q.val < 128
  · rw [dif_pos h]
    refine (concatenate_pair_apply_left (t := S4096x256) (s₁ := S4096x128) (s₂ := S4096x128) (1 : Fin S4096x256.rank) _ _ _ (ix2 k q) rfl (ix2 k (⟨q.val, h⟩ : Fin 128)) fun b => ?_).trans ?_
    · match b with
      | ⟨0, _⟩ => rfl
      | ⟨1, _⟩ => rfl
    · rfl
  · rw [dif_neg h]
    have hq := q.isLt
    refine (concatenate_pair_apply_right (t := S4096x256) (s₁ := S4096x128) (s₂ := S4096x128) (1 : Fin S4096x256.rank) _ _ _ (ix2 k q) rfl rfl
      (ix2 k (⟨q.val - 128, by omega⟩ : Fin 128)) (fun b hb => ?_) ?_).trans ?_
    · match b with
      | ⟨0, _⟩ => rfl
      | ⟨1, _⟩ => exact absurd rfl hb
    · show q.val - 128 + 128 = q.val
      omega
    · exact one_bf16

/-- On the contracted axis the weight matrix is read at the contraction position. -/
theorem lhs_axis0 (j : S1024x256.Idx) (k : dot_S4096x1024_S4096x256_S1024x256_0_0_1_1_n_n.contr.Idx) :
    (dot_S4096x1024_S4096x256_S1024x256_0_0_1_1_n_n.lhsIdx j k 0).val = (k ⟨0, by decide⟩).val :=
  DotDims.lhsIdx_val_of_single (d := dot_S4096x1024_S4096x256_S1024x256_0_0_1_1_n_n) (cl := 0) rfl j k

/-- On its other axis the weight matrix is read at the result's row. -/
theorem lhs_axis1 (j : S1024x256.Idx) (k : dot_S4096x1024_S4096x256_S1024x256_0_0_1_1_n_n.contr.Idx) :
    (dot_S4096x1024_S4096x256_S1024x256_0_0_1_1_n_n.lhsIdx j k 1).val = (j 0).val := by
  unfold DotDims.lhsIdx
  rw [dif_neg (show ¬ (1 : Fin S4096x1024.rank) ∈ dot_S4096x1024_S4096x256_S1024x256_0_0_1_1_n_n.lhsBatch by decide),
    dif_pos (show (1 : Fin S4096x1024.rank) ∈ dot_S4096x1024_S4096x256_S1024x256_0_0_1_1_n_n.lhsNonContracting by decide)]
  rfl

/-- On the contracted axis the widened samples are read at the contraction position. -/
theorem rhs_axis0 (j : S1024x256.Idx) (k : dot_S4096x1024_S4096x256_S1024x256_0_0_1_1_n_n.contr.Idx) :
    (dot_S4096x1024_S4096x256_S1024x256_0_0_1_1_n_n.rhsIdx j k 0).val = (k ⟨0, by decide⟩).val :=
  DotDims.rhsIdx_val_of_single (d := dot_S4096x1024_S4096x256_S1024x256_0_0_1_1_n_n) (cr := 0) rfl j k

/-- On their other axis the widened samples are read at the result's column. -/
theorem rhs_axis1 (j : S1024x256.Idx) (k : dot_S4096x1024_S4096x256_S1024x256_0_0_1_1_n_n.contr.Idx) :
    (dot_S4096x1024_S4096x256_S1024x256_0_0_1_1_n_n.rhsIdx j k 1).val = (j 1).val := by
  unfold DotDims.rhsIdx
  rw [dif_neg (show ¬ (1 : Fin S4096x256.rank) ∈ dot_S4096x1024_S4096x256_S1024x256_0_0_1_1_n_n.rhsBatch by decide),
    dif_pos (show (1 : Fin S4096x256.rank) ∈ dot_S4096x1024_S4096x256_S1024x256_0_0_1_1_n_n.rhsNonContracting by decide)]
  rfl

/-- The weight matrix's index at result entry (r, q) and contraction position k is (k, r). -/
theorem lhs_index (r : Fin 1024) (q : Fin 256) (k : Fin 4096) :
    dot_S4096x1024_S4096x256_S1024x256_0_0_1_1_n_n.lhsIdx (ix2 r q)
      ((contrEquiv1 dot_S4096x1024_S4096x256_S1024x256_0_0_1_1_n_n 4096 rfl rfl).symm k) = ix2 k r := by
  have hk := contrEquiv1_symm_val dot_S4096x1024_S4096x256_S1024x256_0_0_1_1_n_n 4096 rfl rfl k
  funext ax
  apply Fin.ext
  match ax with
  | ⟨0, _⟩ => exact (lhs_axis0 _ _).trans hk
  | ⟨1, _⟩ => exact lhs_axis1 _ _

/-- The widened samples' index at result entry (r, q) and contraction position k is (k, q). -/
theorem rhs_index (r : Fin 1024) (q : Fin 256) (k : Fin 4096) :
    dot_S4096x1024_S4096x256_S1024x256_0_0_1_1_n_n.rhsIdx (ix2 r q)
      ((contrEquiv1 dot_S4096x1024_S4096x256_S1024x256_0_0_1_1_n_n 4096 rfl rfl).symm k) = ix2 k q := by
  have hk := contrEquiv1_symm_val dot_S4096x1024_S4096x256_S1024x256_0_0_1_1_n_n 4096 rfl rfl k
  funext ax
  apply Fin.ext
  match ax with
  | ⟨0, _⟩ => exact (rhs_axis0 _ _).trans hk
  | ⟨1, _⟩ => exact rhs_axis1 _ _

/-- The product into the zero accumulator, at entry (r, q): the sum over the rows k of the two operands' entries. -/
theorem product_apply (A : FVec Ideal S4096x1024 .bf16) (B : FVec Ideal S4096x256 .bf16) (r : Fin 1024) (q : Fin 256) :
    matmul (F := Ideal) dot_S4096x1024_S4096x256_S1024x256_0_0_1_1_n_n none A B (constant (F := Ideal) S1024x256 .f32 0x00000000#32) (ix2 r q)
      = ∑ k : Fin 4096, A (ix2 k r) * B (ix2 k q) := by
  show FloatOps.matmul _ none A B _ (ix2 r q) = _
  rw [Ideal.matmul_constant_zero_apply,
    ← Equiv.sum_comp (contrEquiv1 dot_S4096x1024_S4096x256_S1024x256_0_0_1_1_n_n 4096 rfl rfl).symm]
  refine Finset.sum_congr rfl fun k _ => ?_
  rw [lhs_index, rhs_index]

theorem pay2_apply (y : Vec Ideal S4096 .i32) (x : Vec Ideal S4096x128 .f32) (a : Vec Ideal S1024x256 .f32) (r : Fin 1024) (q : Fin 256) :
    k0_pay2 (F := Ideal) y x a (ix2 r q)
      = a (ix2 r q) + ∑ k : Fin 4096, hot (y (ix1 k)) r.val * (if h : q.val < 128 then x (ix2 k ⟨q.val, h⟩) else 1) := by
  unfold k0_pay2
  rw [shapeCast_self]
  refine (addf_apply _ _ _).trans (congrArg (a (ix2 r q) + ·) ?_)
  refine (product_apply _ _ r q).trans (Finset.sum_congr rfl fun k _ => ?_)
  exact congrArg₂ (· * ·) (onehot_apply y k r) (widened_apply x k q)

theorem pay1_apply (j : S1024x256.Idx) : k0_pay1 (F := Ideal) j = 0 := by
  unfold k0_pay1
  rw [shapeCast_self]
  exact Ideal.ofBits_zero_f32

theorem pay3_apply {F : FTy → Type} [FloatOps F] (v : Vec F S1024x128 .f32) (u : Fin 1) (r : Fin 1024) (e : Fin 128) :
    k0_pay3 v (ix3 u r e) = v (ix2 r e) :=
  shapeCast_ab_1ab_apply v _ u r e

theorem pay4_apply {F : FTy → Type} [FloatOps F] (v : Vec F S1024x1 .f32) (u : Fin 1) (r : Fin 1024) (z : Fin 1) :
    k0_pay4 v (ix3 u r z) = v (ix2 r z) :=
  shapeCast_ab_1ab_apply v _ u r z

end Cert.KernelIdeal.Payload

end
-- ==== Proof.Accum.lean ====
/-
  The accumulator point by point, and what the two results hold after the run.

  Grid point t (0 … 127, worker t / 64) is handed block t of the samples and of the labels: rows
  t·4096 … t·4096 + 4095.  By induction over the points, the accumulator after point t holds, at (r, q), the
  weighted sums of the blocks its worker has added so far: at a worker's first point the zeros plus that
  block, afterwards what the point before left plus the new block.  A worker's last point (t ≡ 63 mod 64)
  is the only one that writes the results back: block t / 64 of the first result receives the accumulator's
  first 128 columns, block t / 64 of the second its column 128.
-/
import proofs.«404732_j30829275250754_3_alg».proof.Proof.Gen.KernelIdeal.Frame
import proofs.«404732_j30829275250754_3_alg».proof.Proof.Spec
import proofs.«404732_j30829275250754_3_alg».proof.Proof.Pieces
import proofs.«404732_j30829275250754_3_alg».proof.Proof.Payload
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx
open Idealize.SL Idealize.SL.Sem
open Cert.KernelIdeal Cert.KernelIdeal.Gen Cert.Centers

variable {F : FTy → Type} [FloatOps F]
variable (m : (ℓ : Loc nD τ sig) → Buf (Elt F) ℓ)

abbrev xarr (c : Dev nD) : Vec F S524288x128 .f32 := V m c main_arg0
abbrev yarr (c : Dev nD) : Vec F S524288 .i32 := V m c main_arg1
abbrev xblk (c : Dev nD) (t : Fin cfg0.N) : Vec F S4096x128 .f32 := iblk m c 0 t
abbrev yblk (c : Dev nD) (t : Fin cfg0.N) : Vec F S4096 .i32 := iblk m c 1 t

/-- Where each window's block sits at a grid point: the samples' and the labels' block is block `t` along the rows; each
    result's block is block `t / 64` along its leading axis. -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem index1 : ∀ t : Fin cfg0.N, win0_1.index t (0 : Fin 1) = t.val :=
  (by decide +kernel : ∀ t : Fin grid0.N, win0_1.index t (0 : Fin 1) = t.val)

theorem index2 : ∀ t : Fin cfg0.N, win0_2.index t (0 : Fin 3) = t.val / 64 ∧ win0_2.index t (1 : Fin 3) = 0 ∧ win0_2.index t (2 : Fin 3) = 0 :=
  (by decide +kernel : ∀ t : Fin grid0.N, win0_2.index t (0 : Fin 3) = t.val / 64 ∧ win0_2.index t (1 : Fin 3) = 0 ∧ win0_2.index t (2 : Fin 3) = 0)

theorem index3 : ∀ t : Fin cfg0.N, win0_3.index t (0 : Fin 3) = t.val / 64 ∧ win0_3.index t (1 : Fin 3) = 0 ∧ win0_3.index t (2 : Fin 3) = 0 :=
  (by decide +kernel : ∀ t : Fin grid0.N, win0_3.index t (0 : Fin 3) = t.val / 64 ∧ win0_3.index t (1 : Fin 3) = 0 ∧ win0_3.index t (2 : Fin 3) = 0)

theorem tlt (t : Fin cfg0.N) : t.val < 128 := lt_of_lt_of_eq t.isLt (show cfg0.N = 128 from N_0)

/-- Row `k` of the samples' block at point `t` is row `t·4096 + k` of the samples. -/
theorem xblk_apply (c : Dev nD) (t : Fin cfg0.N) (k : Fin 4096) (e : Fin 128) :
    xblk m c t (ix2 k e) = xarr m c (ix2 (row ⟨t.val, tlt t⟩ k) e) := by
  show V m c main_arg0 (((cfg0.win 0).blk t).view.emb (ix2 k e)) = V m c main_arg0 (ix2 (row ⟨t.val, tlt t⟩ k) e)
  refine congrArg _ (funext fun a => Fin.ext ?_)
  match a with
  | ⟨0, _⟩ =>
    show win0_0.index t (0 : Fin 2) * 4096 + 1 * k.val = t.val * 4096 + k.val
    rw [(index0 t).1]; omega
  | ⟨1, _⟩ =>
    show win0_0.index t (1 : Fin 2) * 128 + 1 * e.val = e.val
    rw [(index0 t).2]; omega

/-- Entry `k` of the labels' block at point `t` is label `t·4096 + k`. -/
theorem yblk_apply (c : Dev nD) (t : Fin cfg0.N) (k : Fin 4096) :
    yblk m c t (ix1 k) = yarr m c (ix1 (row ⟨t.val, tlt t⟩ k)) := by
  show V m c main_arg1 (((cfg0.win 1).blk t).view.emb (ix1 k)) = V m c main_arg1 (ix1 (row ⟨t.val, tlt t⟩ k))
  refine congrArg _ (funext fun a => Fin.ext ?_)
  match a with
  | ⟨0, _⟩ =>
    show win0_1.index t (0 : Fin 1) * 4096 + 1 * k.val = t.val * 4096 + k.val
    rw [index1 t]; omega

end Cert.KernelIdeal.Blocks

namespace Cert.KernelIdeal.Accum

open Idealize.ShloMosaic Idealize.ShloMosaic.TcCoe Idealize.ShloMosaic.ValueIdx
open Idealize.SL Idealize.SL.Sem
open Cert.KernelIdeal Cert.KernelIdeal.Gen Cert.Centers Cert.KernelIdeal.Blocks Cert.KernelIdeal.Payload

variable (m : (ℓ : Loc nD τ sig) → Buf (Elt Ideal) ℓ)

/-- One block's weighted sums, read off the block's rows, are the block's sum over the rows of all samples. -/
theorem block_eq (c : Dev nD) (t : Fin cfg0.N) (r : Fin 1024) (q : Fin 256) :
    (∑ k : Fin 4096, hot (yblk m c t (ix1 k)) r.val * (if h : q.val < 128 then xblk m c t (ix2 k ⟨q.val, h⟩) else 1))
      = blockSum (xarr m c) (yarr m c) ⟨t.val, tlt t⟩ r q := by
  unfold blockSum
  refine Finset.sum_congr rfl fun k _ => ?_
  rw [yblk_apply]
  congr 1
  unfold aug
  split
  · exact xblk_apply m c t k _
  · rfl

/-- After a point the accumulator holds the sums over the blocks its worker has added so far. -/
theorem step (c : Dev nD) (t : Fin cfg0.N)
    (ih : ¬ t.val % 64 = 0 → ∀ (r : Fin 1024) (q : Fin 256),
      (outsAt0 m c (t.val - 1) (Nat.lt_of_le_of_lt (Nat.sub_le _ _) t.isLt)).2.2 (ix2 r q) = acc (xarr m c) (yarr m c) (t.val - 1) r q)
    (r : Fin 1024) (q : Fin 256) :
    (outsAt0 m c t.val t.isLt).2.2 (ix2 r q) = acc (xarr m c) (yarr m c) t.val r q := by
  by_cases h0 : t.val % 64 = 0
  · have h1 : ¬ t.val % 64 = 63 := by omega
    rw [outsAt0_A m c t h0 h1]
    dsimp only
    refine (congrFun (Pieces.sout_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (xblk m c t) (yblk m c t)) (ix2 r q)).trans ?_
    refine (pay2_apply (yblk m c t) (xblk m c t) (k0_pay1 (F := Ideal)) r q).trans ?_
    rw [pay1_apply, zero_add, acc_first _ _ (tlt t) h0]
    exact block_eq m c t r q
  · by_cases h1 : t.val % 64 = 63
    · rw [outsAt0_C m c t h0 h1]
      dsimp only
      refine (congrFun (Pieces.sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk m c t) (yblk m c t) (outsAt0 m c (t.val - 1) (Nat.lt_of_le_of_lt (Nat.sub_le _ _) t.isLt)).2.2) (ix2 r q)).trans ?_
      refine (pay2_apply (yblk m c t) (xblk m c t) _ r q).trans ?_
      rw [ih h0 r q, acc_next _ _ (tlt t) h0]
      exact congrArg _ (block_eq m c t r q)
    · rw [outsAt0_B m c t h0 h1]
      dsimp only
      refine (congrFun (Pieces.sout_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (xblk m c t) (yblk m c t) (outsAt0 m c (t.val - 1) (Nat.lt_of_le_of_lt (Nat.sub_le _ _) t.isLt)).2.2) (ix2 r q)).trans ?_
      refine (pay2_apply (yblk m c t) (xblk m c t) _ r q).trans ?_
      rw [ih h0 r q, acc_next _ _ (tlt t) h0]
      exact congrArg _ (block_eq m c t r q)

/-- By induction over the points. -/
theorem acc_eq (c : Dev nD) : ∀ (n : ℕ) (hn : n < cfg0.N) (r : Fin 1024) (q : Fin 256),
    (outsAt0 m c n hn).2.2 (ix2 r q) = acc (xarr m c) (yarr m c) n r q := by
  intro n
  induction n with
  | zero => exact fun hn r q => step m c ⟨0, hn⟩ (fun h => absurd (Nat.zero_mod _) h) r q
  | succ n ihn => exact fun hn r q => step m c ⟨n + 1, hn⟩ (fun _ => ihn (Nat.lt_of_succ_lt hn)) r q

/-- At a worker's last point the first result's block is the updated accumulator's first 128 columns, and the second
    result's block its column 128. -/
theorem outs_C (c : Dev nD) (t : Fin cfg0.N) (h0 : ¬ t.val % 64 = 0) (h1 : t.val % 64 = 63) :
    (outsAt0 m c t.val t.isLt).1 = k0_pay3 (Pieces.left (outsAt0 m c t.val t.isLt).2.2)
    ∧ (outsAt0 m c t.val t.isLt).2.1 = k0_pay4 (Pieces.mid (outsAt0 m c t.val t.isLt).2.2) := by
  rw [outsAt0_C m c t h0 h1]
  dsimp only
  constructor
  · exact (Pieces.out_C_2 (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk m c t) (yblk m c t) (outsAt0 m c (t.val - 1) (Nat.lt_of_le_of_lt (Nat.sub_le _ _) t.isLt)).2.2).trans
      (congrArg (fun z => k0_pay3 (Pieces.left z)) (Pieces.sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk m c t) (yblk m c t) (outsAt0 m c (t.val - 1) (Nat.lt_of_le_of_lt (Nat.sub_le _ _) t.isLt)).2.2).symm)
  · exact (Pieces.out_C_3 (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk m c t) (yblk m c t) (outsAt0 m c (t.val - 1) (Nat.lt_of_le_of_lt (Nat.sub_le _ _) t.isLt)).2.2).trans
      (congrArg (fun z => k0_pay4 (Pieces.mid z)) (Pieces.sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk m c t) (yblk m c t) (outsAt0 m c (t.val - 1) (Nat.lt_of_le_of_lt (Nat.sub_le _ _) t.isLt)).2.2).symm)

/-- The first result after the run: entry (w, r, e) is worker w's last accumulator at (r, e). -/
def sumsArr (X : (⟨2, ![524288, 128]⟩ : Shape).Idx → EReal) (Y : (⟨1, ![524288]⟩ : Shape).Idx → BitVec 32) :
    (⟨3, ![2, 1024, 128]⟩ : Shape).Idx → EReal :=
  fun j => acc X Y ((j 0).val * 64 + 63) (j 1) ⟨(j 2).val, by have : (j 2).val < 128 := (j 2).isLt; omega⟩

/-- The second result after the run: entry (w, r, 0) is worker w's last accumulator at (r, 128). -/
def cntArr (X : (⟨2, ![524288, 128]⟩ : Shape).Idx → EReal) (Y : (⟨1, ![524288]⟩ : Shape).Idx → BitVec 32) :
    (⟨3, ![2, 1024, 1]⟩ : Shape).Idx → EReal :=
  fun j => acc X Y ((j 0).val * 64 + 63) (j 1) ⟨128, by decide⟩

/-- The first result's array at an index given by its coordinates. -/
theorem sumsArr_apply (X : (⟨2, ![524288, 128]⟩ : Shape).Idx → EReal) (Y : (⟨1, ![524288]⟩ : Shape).Idx → BitVec 32)
    (i : (⟨3, ![2, 1024, 128]⟩ : Shape).Idx) (t : ℕ) (r : Fin 1024) (q : Fin 256)
    (h0 : (i 0).val * 64 + 63 = t) (h1 : (i 1).val = r.val) (h2 : (i 2).val = q.val) : sumsArr X Y i = acc X Y t r q := by
  unfold sumsArr
  subst h0
  congr 1
  · exact Fin.ext h1
  · exact Fin.ext h2

/-- The second result's array at an index given by its coordinates. -/
theorem cntArr_apply (X : (⟨2, ![524288, 128]⟩ : Shape).Idx → EReal) (Y : (⟨1, ![524288]⟩ : Shape).Idx → BitVec 32)
    (i : (⟨3, ![2, 1024, 1]⟩ : Shape).Idx) (t : ℕ) (r : Fin 1024)
    (h0 : (i 0).val * 64 + 63 = t) (h1 : (i 1).val = r.val) : cntArr X Y i = acc X Y t r ⟨128, by decide⟩ := by
  unfold cntArr
  subst h0
  congr 1
  exact Fin.ext h1

/-- What a worker's last point writes back into the first result is its block of `sumsArr`. -/
theorem flushed2_eq (c : Dev nD) (t : Fin cfg0.N) (hf : (cfg0.win 2).flush t = true) :
    (dats m 0 c).flushed 2 t = ((cfg0.win 2).blk t).view.read (Elt Ideal) (sumsArr (xarr m c) (yarr m c)) := by
  have h1 : t.val % 64 = 63 := (flush0_2 t).mp hf
  have h0 : ¬ t.val % 64 = 0 := by omega
  show (cfg0.win 2).cut (grid0.coords t) ((dats m 0 c).after 2 t) = _
  rw [after0_2, (outs_C m c t h0 h1).1]
  funext y
  rw [View.read_apply]
  obtain ⟨u, r, e, hj⟩ : ∃ (u : Fin 1) (r : Fin 1024) (e : Fin 128), (cfg0.win 2).xinj (grid0.coords t) y = ix3 u r e :=
    ⟨_, _, _, eq_ix3 ((cfg0.win 2).xinj (grid0.coords t) y)⟩
  have hy0 : (y 0).val = u.val := congrArg (fun j : S1x1024x128.Idx => (j 0).val) hj
  have hy1 : (y 1).val = r.val := congrArg (fun j : S1x1024x128.Idx => (j 1).val) hj
  have hy2 : (y 2).val = e.val := congrArg (fun j : S1x1024x128.Idx => (j 2).val) hj
  show k0_pay3 (Pieces.left (outsAt0 m c t.val t.isLt).2.2) ((cfg0.win 2).xinj (grid0.coords t) y) = _
  rw [hj, pay3_apply, Pieces.left_apply, acc_eq m c t.val t.isLt]
  refine (sumsArr_apply _ _ _ t.val r _ ?_ ?_ ?_).symm
  · show (win0_2.index t (0 : Fin 3) * 1 + 1 * (y 0).val) * 64 + 63 = t.val
    rw [(index2 t).1, hy0]; have := u.isLt; omega
  · show win0_2.index t (1 : Fin 3) * 1024 + 1 * (y 1).val = r.val
    rw [(index2 t).2.1, hy1]; omega
  · show win0_2.index t (2 : Fin 3) * 128 + 1 * (y 2).val = e.val
    rw [(index2 t).2.2, hy2]; omega

/-- What a worker's last point writes back into the second result is its block of `cntArr`. -/
theorem flushed3_eq (c : Dev nD) (t : Fin cfg0.N) (hf : (cfg0.win 3).flush t = true) :
    (dats m 0 c).flushed 3 t = ((cfg0.win 3).blk t).view.read (Elt Ideal) (cntArr (xarr m c) (yarr m c)) := by
  have h1 : t.val % 64 = 63 := (flush0_3 t).mp hf
  have h0 : ¬ t.val % 64 = 0 := by omega
  show (cfg0.win 3).cut (grid0.coords t) ((dats m 0 c).after 3 t) = _
  rw [after0_3, (outs_C m c t h0 h1).2]
  funext y
  rw [View.read_apply]
  obtain ⟨u, r, z, hj⟩ : ∃ (u : Fin 1) (r : Fin 1024) (z : Fin 1), (cfg0.win 3).xinj (grid0.coords t) y = ix3 u r z :=
    ⟨_, _, _, eq_ix3 ((cfg0.win 3).xinj (grid0.coords t) y)⟩
  have hy0 : (y 0).val = u.val := congrArg (fun j : S1x1024x1.Idx => (j 0).val) hj
  have hy1 : (y 1).val = r.val := congrArg (fun j : S1x1024x1.Idx => (j 1).val) hj
  show k0_pay4 (Pieces.mid (outsAt0 m c t.val t.isLt).2.2) ((cfg0.win 3).xinj (grid0.coords t) y) = _
  rw [hj, pay4_apply, Pieces.mid_apply, acc_eq m c t.val t.isLt]
  refine (cntArr_apply _ _ _ t.val r ?_ ?_).symm
  · show (win0_3.index t (0 : Fin 3) * 1 + 1 * (y 0).val) * 64 + 63 = t.val
    rw [(index3 t).1, hy0]; have := u.isLt; omega
  · show win0_3.index t (1 : Fin 3) * 1024 + 1 * (y 1).val = r.val
    rw [(index3 t).2.1, hy1]; omega

end Cert.KernelIdeal.Accum

end
-- ==== Proof.Tail.lean ====
/-
  What both programs do with the per-class sums and counts.

  Given the per-class sums S (1000 × 128), the per-class counts C (1000), the old centers and the number of
  batches tracked n: a class is present when its count is above zero; its mean is its sum divided by the count
  raised to at least one; the running average is (mean + center · n) / (n + 1); a present class takes the
  running average, an absent one keeps its old center.  Both programs apply exactly these operations, in this
  order, to their own sums and counts, so the operations are carried as one function and never opened.

  The kernel's sums and counts are the two workers' partial results added over the leading axis and cut to the
  first 1000 classes (the counts also flattened from a column to a vector).
-/
import proofs.«404732_j30829275250754_3_alg».proof.Proof.Gen.KernelIdeal

noncomputable section

namespace Cert.KernelIdeal.Tail

open Idealize.ShloMosaic Cert.KernelIdeal
open Cert.KernelIdeal.Facts₀

variable {F : FTy → Type} [FloatOps F]

/-- The update of the centers from the per-class sums and counts. -/
def tail (S : (⟨S1000x128, .f32⟩ : BufTy).Contents (Elt F)) (C : (⟨S1000, .f32⟩ : BufTy).Contents (Elt F))
    (centers : (⟨S1000x128, .f32⟩ : BufTy).Contents (Elt F)) (nbt : (⟨S1, .f32⟩ : BufTy).Contents (Elt F)) :
    (⟨S1000x128, .f32⟩ : BufTy).Contents (Elt F) :=
  select
    (broadcastInDim S1000x128 ![0, 1] bcast_S1000x1_S1000x128_0_1 (broadcastInDim S1000x1 ![0] bcast_S1000_S1000x1_0
      (cmpf (F := F) .ogt C (broadcastInDim S1000 ![] bcast_S_S1000 (constant S_ .f32 0x00000000#32)))))
    (Host.divf
      (addf
        (Host.divf S (broadcastInDim S1000x128 ![0, 1] bcast_S1000x1_S1000x128_0_1 (broadcastInDim S1000x1 ![0] bcast_S1000_S1000x1_0
          (maximumf C (broadcastInDim S1000 ![] bcast_S_S1000 (constant S_ .f32 0x3F800000#32))))))
        (mulf centers (broadcastInDim S1000x128 ![] bcast_S_S1000x128 (shapeCast _ nbt shapeCasts_S1_S_))))
      (broadcastInDim S1000x128 ![] bcast_S_S1000x128 (addf (shapeCast _ nbt shapeCasts_S1_S_) (constant S_ .f32 0x3F800000#32))))
    centers

/-- The kernel's per-class sums from its first result: the two workers' parts added, the first 1000 classes kept. -/
def sumsOf (A : (⟨S2x1024x128, .f32⟩ : BufTy).Contents (Elt F)) : (⟨S1000x128, .f32⟩ : BufTy).Contents (Elt F) :=
  extractStridedSlice S1000x128 ![0, 0]
    (Host.reduceAdd A (constant S_ .f32 0x00000000#32 : (⟨S_, .f32⟩ : BufTy).Contents (Elt F)) reducesTo_S2x1024x128_S1024x128_d0 h_S_)
    slices_S1024x128_S1000x128_0_0

/-- The kernel's per-class counts from its second result: the two workers' parts added, the first 1000 classes kept,
    the column flattened. -/
def countsOf (B : (⟨S2x1024x1, .f32⟩ : BufTy).Contents (Elt F)) : (⟨S1000, .f32⟩ : BufTy).Contents (Elt F) :=
  shapeCast _
    (extractStridedSlice S1000x1 ![0, 0]
      (Host.reduceAdd B (constant S_ .f32 0x00000000#32 : (⟨S_, .f32⟩ : BufTy).Contents (Elt F)) reducesTo_S2x1024x1_S1024x1_d0 h_S_)
      slices_S1024x1_S1000x1_0_0)
    shapeCasts_S1000x1_S1000

end Cert.KernelIdeal.Tail

end
-- ==== Proof.KernelValue.lean ====
/-
  The idealized kernel's run, read: what its result holds.

  Every entry of each result array lies in the block that its worker's last point writes back, so after the
  run the first result holds the two workers' last accumulators' first 128 columns and the second their
  column 128.  The lines after the region add the two workers' parts, keep the first 1000 classes, and
  apply the update of the centers; no line after the region writes an argument.
-/
import proofs.«404732_j30829275250754_3_alg».proof.Proof.Accum
import proofs.«404732_j30829275250754_3_alg».proof.Proof.Tail
import Idealize.ShloMosaic.Lib.StableHlo.Run

set_option maxRecDepth 16384

noncomputable section

namespace Cert.KernelIdeal.Result

open Idealize.ShloMosaic Idealize.ShloMosaic.TcCoe Idealize.ShloMosaic.ValueIdx
open Idealize.SL Idealize.SL.Sem
open Cert.KernelIdeal Cert.KernelIdeal.Gen Cert.Centers Cert.KernelIdeal.Blocks Cert.KernelIdeal.Accum Cert.KernelIdeal.Tail

variable (m : (ℓ : Loc nD τ sig) → Buf (Elt Ideal) ℓ) (ρ : Dev nD → PrngReg)

/-- No block of a result overhangs its array: each has its full extents at every point. -/
theorem xsize2 : ∀ t : Fin cfg0.N, win0_2.xsize (grid0.coords t) (0 : Fin 3) = 1 ∧ win0_2.xsize (grid0.coords t) (1 : Fin 3) = 1024 ∧ win0_2.xsize (grid0.coords t) (2 : Fin 3) = 128 :=
  (by decide +kernel : ∀ t : Fin grid0.N, win0_2.xsize (grid0.coords t) (0 : Fin 3) = 1 ∧ win0_2.xsize (grid0.coords t) (1 : Fin 3) = 1024 ∧ win0_2.xsize (grid0.coords t) (2 : Fin 3) = 128)

theorem xsize3 : ∀ t : Fin cfg0.N, win0_3.xsize (grid0.coords t) (0 : Fin 3) = 1 ∧ win0_3.xsize (grid0.coords t) (1 : Fin 3) = 1024 ∧ win0_3.xsize (grid0.coords t) (2 : Fin 3) = 1 :=
  (by decide +kernel : ∀ t : Fin grid0.N, win0_3.xsize (grid0.coords t) (0 : Fin 3) = 1 ∧ win0_3.xsize (grid0.coords t) (1 : Fin 3) = 1024 ∧ win0_3.xsize (grid0.coords t) (2 : Fin 3) = 1)

/-- Every entry of the first result lies in the block its worker's last point writes back. -/
theorem cover2 (c : Dev nD) (i : ((cfg0.win 2).arr.view.loc (c.tc : Thread nD τ)).2.ty.Idx) :
    ∃ t : Fin cfg0.N, (cfg0.win 2).flush t = true ∧ i ∈ ((cfg0.win 2).blk t).view.set := by
  have hi0 : (i 0 : Nat) < 2 := (i 0).isLt
  have hi1 : (i 1 : Nat) < 1024 := (i 1).isLt
  have hi2 : (i 2 : Nat) < 128 := (i 2).isLt
  have hN : cfg0.N = 128 := N_0
  let t : Fin cfg0.N := ⟨(i 0 : Nat) * 64 + 63, by omega⟩
  refine ⟨t, (flush0_2 t).mpr (by show ((i 0 : Nat) * 64 + 63) % 64 = 63; omega), ?_⟩
  show i ∈ ((View.whole main_v0_0).slice (win0_2.rect t)).set
  rw [View.set_slice_whole, Rect.mem_set_unit]
  intro a
  have ht : t.val / 64 = (i 0 : Nat) := by show ((i 0 : Nat) * 64 + 63) / 64 = _; omega
  match a with
  | ⟨0, _⟩ =>
    show win0_2.index t 0 * win0_2.size 0 ≤ (i 0 : Nat) ∧ (i 0 : Nat) < win0_2.index t 0 * win0_2.size 0 + win0_2.xsize (grid0.coords t) 0
    rw [(index2 t).1, (xsize2 t).1, ht]; show (i 0 : Nat) * 1 ≤ _ ∧ _ < (i 0 : Nat) * 1 + 1; omega
  | ⟨1, _⟩ =>
    show win0_2.index t 1 * win0_2.size 1 ≤ (i 1 : Nat) ∧ (i 1 : Nat) < win0_2.index t 1 * win0_2.size 1 + win0_2.xsize (grid0.coords t) 1
    rw [(index2 t).2.1, (xsize2 t).2.1]; omega
  | ⟨2, _⟩ =>
    show win0_2.index t 2 * win0_2.size 2 ≤ (i 2 : Nat) ∧ (i 2 : Nat) < win0_2.index t 2 * win0_2.size 2 + win0_2.xsize (grid0.coords t) 2
    rw [(index2 t).2.2, (xsize2 t).2.2]; omega

/-- The first result after the run. -/
theorem final2 (c : Dev nD) : (dats m 0 c).arrAt 2 cfg0.N = sumsArr (xarr m c) (yarr m c) :=
  (dats m 0 c).arrAt_eq_of_cover 2 (sumsArr (xarr m c) (yarr m c)) (flushed2_eq m c) (cover2 c)

/-- Every entry of the second result lies in the block its worker's last point writes back. -/
theorem cover3 (c : Dev nD) (i : ((cfg0.win 3).arr.view.loc (c.tc : Thread nD τ)).2.ty.Idx) :
    ∃ t : Fin cfg0.N, (cfg0.win 3).flush t = true ∧ i ∈ ((cfg0.win 3).blk t).view.set := by
  have hi0 : (i 0 : Nat) < 2 := (i 0).isLt
  have hi1 : (i 1 : Nat) < 1024 := (i 1).isLt
  have hi2 : (i 2 : Nat) < 1 := (i 2).isLt
  have hN : cfg0.N = 128 := N_0
  let t : Fin cfg0.N := ⟨(i 0 : Nat) * 64 + 63, by omega⟩
  refine ⟨t, (flush0_3 t).mpr (by show ((i 0 : Nat) * 64 + 63) % 64 = 63; omega), ?_⟩
  show i ∈ ((View.whole main_v0_1).slice (win0_3.rect t)).set
  rw [View.set_slice_whole, Rect.mem_set_unit]
  intro a
  have ht : t.val / 64 = (i 0 : Nat) := by show ((i 0 : Nat) * 64 + 63) / 64 = _; omega
  match a with
  | ⟨0, _⟩ =>
    show win0_3.index t 0 * win0_3.size 0 ≤ (i 0 : Nat) ∧ (i 0 : Nat) < win0_3.index t 0 * win0_3.size 0 + win0_3.xsize (grid0.coords t) 0
    rw [(index3 t).1, (xsize3 t).1, ht]; show (i 0 : Nat) * 1 ≤ _ ∧ _ < (i 0 : Nat) * 1 + 1; omega
  | ⟨1, _⟩ =>
    show win0_3.index t 1 * win0_3.size 1 ≤ (i 1 : Nat) ∧ (i 1 : Nat) < win0_3.index t 1 * win0_3.size 1 + win0_3.xsize (grid0.coords t) 1
    rw [(index3 t).2.1, (xsize3 t).2.1]; omega
  | ⟨2, _⟩ =>
    show win0_3.index t 2 * win0_3.size 2 ≤ (i 2 : Nat) ∧ (i 2 : Nat) < win0_3.index t 2 * win0_3.size 2 + win0_3.xsize (grid0.coords t) 2
    rw [(index3 t).2.2, (xsize3 t).2.2]; omega

/-- The second result after the run. -/
theorem final3 (c : Dev nD) : (dats m 0 c).arrAt 3 cfg0.N = cntArr (xarr m c) (yarr m c) :=
  (dats m 0 c).arrAt_eq_of_cover 3 (cntArr (xarr m c) (yarr m c)) (flushed3_eq m c) (cover3 c)

/-- The buffers as the region leaves them: the pipeline's arrays at their final contents, every other buffer as launched. -/
abbrev W (c : Dev nD) (b : Ref sig .tc) : Buf (Elt Ideal) ((c.tc : Thread nD τ).loc b) :=
  Pipeline.withArrays (cfgs 0).spec c (V0 m c) (fun w => (dats m 0 c).arrAt w (cfgs 0).N) (Proc.devRef .tc b)

set_option maxHeartbeats 4000000 in
/-- The lines after the region, composed: the update of the centers applied to the kernel's sums and counts. -/
theorem tail_term (c : Dev nD) :
    Pipeline.afterTail₀ cfgs (dats m) 0 (V0 m) [hostOps1, hostOps1_1] c main_v21
      = tail (sumsOf (W m c main_v0_0)) (countsOf (W m c main_v0_1)) (W m c main_arg2) (W m c main_arg3) := by
  unfold Pipeline.afterTail₀
  show StableHlo.after (List.flatten [hostOps1, hostOps1_1]) _ (Proc.devRef .tc main_v21) = _
  simp only [hostOps1, hostOps1_1, List.flatten_cons, List.flatten_nil, List.append_nil, List.cons_append, List.nil_append]
  after_results
  rfl

theorem W_v0_0 (c : Dev nD) : W m c main_v0_0 = sumsArr (xarr m c) (yarr m c) :=
  (Pipeline.withArrays_arr spec0 launch0.win.arr_inj c _ _ 2).trans (final2 m c)

theorem W_v0_1 (c : Dev nD) : W m c main_v0_1 = cntArr (xarr m c) (yarr m c) :=
  (Pipeline.withArrays_arr spec0 launch0.win.arr_inj c _ _ 3).trans (final3 m c)

theorem W_arg2 (c : Dev nD) : W m c main_arg2 = m ((c.tc : Thread nD τ).loc main_arg2) :=
  (Pipeline.withArrays_of_ne _ c (V0 m c) _ main_arg2 (by exact (by decide : ∀ w, Pipeline.arrRef spec0 w ≠ main_arg2))).trans (V_main_arg2 m c)

theorem W_arg3 (c : Dev nD) : W m c main_arg3 = m ((c.tc : Thread nD τ).loc main_arg3) :=
  (Pipeline.withArrays_of_ne _ c (V0 m c) _ main_arg3 (by exact (by decide : ∀ w, Pipeline.arrRef spec0 w ≠ main_arg3))).trans (V_main_arg3 m c)

/-- The result as a function of the arguments. -/
def result (c : Dev nD) : Buf (Elt Ideal) ((c.tc : Thread nD τ).loc main_v21) :=
  tail (sumsOf (sumsArr (xarr m c) (yarr m c))) (countsOf (cntArr (xarr m c) (yarr m c)))
    (m ((c.tc : Thread nD τ).loc main_arg2)) (m ((c.tc : Thread nD τ).loc main_arg3))

theorem tail_eq (c : Dev nD) :
    Pipeline.afterTail₀ cfgs (dats m) 0 (V0 m) [hostOps1, hostOps1_1] c main_v21 = result m c := by
  rw [tail_term, W_v0_0, W_v0_1, W_arg2, W_arg3]
  rfl

/-- Every weakly fair execution of the idealized kernel ends with the result at `result` and the arguments unchanged. -/
theorem run : θ_run defs (onTc (τ := τ) (main (F := Ideal))) ⟨m, fun _ => 0, ρ⟩ fun r => ∀ c : Dev nD,
      r.2.mem ((c.tc : Thread nD τ).loc main_v21) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v21 (Pipeline.mem_restRefs_of main_v21 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.LibIndexMaps.lean ====
/-
  Index maps of the one-index scatters and gathers, read at one element.

  A scatter whose scatter indices are an [e × 1] column (the index vector on axis 1, one component, sent to
  operand axis 0, that axis inserted) sends update row p to operand row idx[p, 0], read as a signed integer
  and NOT clamped: the update lands on operand row r exactly when that integer is r.  With a window axis
  (updates [e × f] into an operand [n × f]) the column coordinate is carried over unchanged.  Summed over the
  updates, the accumulating scatter adds to operand row r every update row whose index word reads r.

  A gather with the same column of start indices reads operand row idx[p, 0], read signed and clamped into
  the operand; when the integer is a row number k < n the clamp does nothing and the result is the
  operand's row k (its element k for a rank-1 operand, its element (k, c) at result column c for a rank-2
  operand with the second axis an offset axis).  With an [e × 2] array of start indices and both operand
  axes collapsed, result element p is the operand at (idx[p, 0], idx[p, 1]) when both are in range.

  Each statement takes the dimension numbers' fields as hypotheses, so it applies to any record with
  those fields.
-/
import Idealize.ShloMosaic.PureOps.Ideal
import Idealize.ShloMosaic.Lib.ValueIdx

noncomputable section

namespace Cert.Gcn.IndexMaps

open Idealize.ShloMosaic Idealize.ShloMosaic.ValueIdx

/-! ## Axes and coordinates -/

/-- A position on an axis of two places is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- The axes a shape keeps are the ones not listed. -/
theorem mem_kept {s : Shape} (axes : List (Fin s.rank)) (a : Fin s.rank) : a ∈ s.kept axes ↔ a ∉ axes := by
  simp [Shape.kept, List.mem_filter, List.mem_finRange]

/-- Of two axes, the ones kept beside the second are the first alone. -/
theorem kept_snd {s : Shape} (hr : s.rank = 2) (axes : List (Fin s.rank))
    (hne : ∃ a ∈ axes, a.val = 1) : ∀ x ∈ s.kept axes, x.val = 0 := by
  intro x hx
  rw [mem_kept] at hx
  obtain ⟨a, ha, hav⟩ := hne
  have hxa : x ≠ a := fun h => hx (h ▸ ha)
  have hxv : x.val ≠ a.val := fun h => hxa (Fin.ext h)
  have := x.isLt
  omega

/-- A coordinate of a rank-2 index on the axis numbered 0 is its first coordinate. -/
theorem coord_of_val0 {e f : ℕ} (j : (⟨2, ![e, f]⟩ : Shape).Idx) (X : Fin 2) (hX : X.val = 0) : (j X).val = (j 0).val := by
  have : X = 0 := Fin.ext hX
  subst this; rfl

/-- A coordinate of a rank-2 index on the axis numbered 1 is its second coordinate. -/
theorem coord_of_val1 {e f : ℕ} (j : (⟨2, ![e, f]⟩ : Shape).Idx) (X : Fin 2) (hX : X.val = 1) : (j X).val = (j 1).val := by
  have : X = 1 := Fin.ext hX
  subst this; rfl

/-- A sum over a rank-1 index set is the sum over its coordinate range. -/
theorem sum_idx1 {M : Type*} [AddCommMonoid M] {n : ℕ} (f : (⟨1, ![n]⟩ : Shape).Idx → M) :
    ∑ i, f i = ∑ a : Fin n, f (ix1 a) := by
  let eqv : (⟨1, ![n]⟩ : Shape).Idx ≃ Fin n :=
    ⟨fun i => i 0, ix1, fun i => (eq_ix1 i).symm, fun _ => rfl⟩
  rw [← Equiv.sum_comp eqv.symm f]
  rfl

/-! ## The scatter of rank-1 updates into a rank-1 operand -/

/-- Update p reads its one start-index component at (p, 0). -/
theorem scatter1_siIdx {n e : ℕ} (d : ScatterDims ⟨1, ![n]⟩ ⟨2, ![e, 1]⟩ ⟨1, ![e]⟩)
    (hivd : d.indexVectorDim = 1) (j : (⟨1, ![e]⟩ : Shape).Idx) (c : Fin d.scatterDimsToOperandDims.length) :
    d.siIdx j c = ix2 (n0 := e) (n1 := 1) (j 0) 0 := by
  funext b
  match b with
  | ⟨0, _⟩ =>
    unfold ScatterDims.siIdx
    rw [dif_neg (by rw [hivd]; simp)]
    unfold ScatterDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A1) Rank-1 operand, [e × 1] scatter indices, rank-1 updates: update p lands on element r exactly when
    the index word at (p, 0), read signed, is r. -/
theorem scatter1_resultIdx_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (j : (⟨1, ![e]⟩ : Shape).Idx) (i : (⟨1, ![n]⟩ : Shape).Idx) :
    d.resultIdx? j idx = some i ↔ (idx (ix2 (j 0) (0 : Fin 1))).toInt = (((i 0).val : ℕ) : Int) := by
  have hm : (0 : Fin 1) ∈ d.scatterDimsToOperandDims := by rw [hsd]; exact List.mem_singleton.mpr rfl
  have hk : (0 : Fin 1) ∉ d.sKept := by rw [ScatterDims.sKept, mem_kept, hiw]; simp
  have hstart : d.start j idx 0 = (idx (ix2 (j 0) (0 : Fin 1))).toInt := by
    unfold ScatterDims.start
    rw [dif_pos hm, scatter1_siIdx d hivd]
  have hwin : d.window j 0 = 0 := by
    unfold ScatterDims.window
    rw [dif_neg hk]
  have hlt : (i 0).val < n := (i 0).isLt
  unfold ScatterDims.resultIdx?
  split_ifs with h
  · rw [Option.some.injEq]
    have h0 := h 0
    rw [hstart, hwin] at h0
    constructor
    · intro hf
      have hv := congrArg Fin.val (congrFun hf 0)
      simp only [hstart, hwin] at hv
      omega
    · intro he
      funext a
      obtain rfl : a = 0 := Subsingleton.elim _ _
      apply Fin.ext
      simp only [hstart, hwin]
      omega
  · constructor
    · intro hh; cases hh
    · intro he
      exfalso
      apply h
      intro a
      obtain rfl : a = 0 := Subsingleton.elim _ _
      rw [hstart, hwin, he]
      show (0 : Int) ≤ ((i 0).val : ℕ) + ((0 : ℕ) : Int) ∧ (((i 0).val : ℕ) : Int) + ((0 : ℕ) : Int) < (n : ℕ)
      omega

/-- (A1), by coordinates. -/
theorem scatter1_resultIdx_ix_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (p : Fin e) (r : Fin n) :
    d.resultIdx? (ix1 p) idx = some (ix1 r) ↔ (idx (ix2 p (0 : Fin 1))).toInt = ((r.val : ℕ) : Int) :=
  scatter1_resultIdx_iff d huw hiw hsd hivd idx (ix1 p) (ix1 r)

/-- The accumulating scatter of rank-1 updates, read at element r: the operand's element plus the updates
    whose index word reads r. -/
theorem hostScatterAdd1_apply {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (x : (⟨1, ![n]⟩ : Shape).Idx → EReal) (idx : IVec ⟨2, ![e, 1]⟩ w) (upd : (⟨1, ![e]⟩ : Shape).Idx → EReal)
    (r : Fin n) :
    Ideal.hostScatterAdd d x idx upd (ix1 r)
      = x (ix1 r) + ∑ p : Fin e, if (idx (ix2 p (0 : Fin 1))).toInt = ((r.val : ℕ) : Int) then upd (ix1 p) else 0 := by
  unfold Ideal.hostScatterAdd
  congr 1
  rw [Finset.sum_filter, sum_idx1]
  refine Finset.sum_congr rfl (fun p _ => ?_)
  simp only [scatter1_resultIdx_ix_iff d huw hiw hsd hivd]

/-! ## The scatter of [e × f] updates into an [n × f] operand -/

/-- Update (p, c) reads its one start-index component at (p, 0). -/
theorem scatter2_siIdx {n f e : ℕ} (d : ScatterDims ⟨2, ![n, f]⟩ ⟨2, ![e, 1]⟩ ⟨2, ![e, f]⟩)
    (huw : d.updateWindowDims = [1]) (hivd : d.indexVectorDim = 1) (j : (⟨2, ![e, f]⟩ : Shape).Idx)
    (c : Fin d.scatterDimsToOperandDims.length) :
    d.siIdx j c = ix2 (n0 := e) (n1 := 1) (j 0) 0 := by
  have hus : ∀ x ∈ d.uScatter, x.val = 0 :=
    kept_snd rfl _ (by rw [huw]; exact ⟨1, List.mem_singleton.mpr rfl, rfl⟩)
  funext b
  match b with
  | ⟨0, _⟩ =>
    unfold ScatterDims.siIdx
    rw [dif_neg (by rw [hivd]; simp)]
    unfold ScatterDims.siCoord
    apply Fin.ext
    simp only [Fin.val_cast]
    exact coord_of_val0 j _ (hus _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A2) [n × f] operand, [e × 1] scatter indices, [e × f] updates, the second axis a window axis: update
    (p, c) lands on element (r, c') exactly when the index word at (p, 0), read signed, is r and c = c'. -/
theorem scatter2_resultIdx_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (j : (⟨2, ![e, f]⟩ : Shape).Idx) (i : (⟨2, ![n, f]⟩ : Shape).Idx) :
    d.resultIdx? j idx = some i ↔
      (idx (ix2 (j 0) (0 : Fin 1))).toInt = (((i 0).val : ℕ) : Int) ∧ (j 1).val = (i 1).val := by
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [ScatterDims.sKept, mem_kept, hiw]; simp
  have hk1 : (1 : Fin 2) ∈ d.sKept := by rw [ScatterDims.sKept, mem_kept, hiw]; simp
  have hs0 : d.start j idx 0 = (idx (ix2 (j 0) (0 : Fin 1))).toInt := by
    unfold ScatterDims.start
    rw [dif_pos hm0, scatter2_siIdx d huw hivd]
  have hs1 : d.start j idx 1 = 0 := by
    unfold ScatterDims.start
    rw [dif_neg hm1]
  have hw0 : d.window j 0 = 0 := by
    unfold ScatterDims.window
    rw [dif_neg hk0]
  have hw1 : d.window j 1 = (j 1).val := by
    unfold ScatterDims.window
    rw [dif_pos hk1]
    refine coord_of_val1 j _ ?_
    have hall : ∀ x ∈ d.updateWindowDims, x.val = 1 := by rw [huw]; simp
    exact hall _ (List.getElem_mem _)
  have hlt0 : (i 0).val < n := (i 0).isLt
  have hlt1 : (i 1).val < f := (i 1).isLt
  have hjlt1 : (j 1).val < f := (j 1).isLt
  unfold ScatterDims.resultIdx?
  split_ifs with h
  · rw [Option.some.injEq]
    have h0 := h 0
    rw [hs0, hw0] at h0
    constructor
    · intro hf
      have hv0 := congrArg Fin.val (congrFun hf 0)
      have hv1 := congrArg Fin.val (congrFun hf 1)
      simp only [hs0, hw0] at hv0
      simp only [hs1, hw1] at hv1
      constructor <;> omega
    · rintro ⟨he, hc⟩
      funext a
      rcases fin2_cases a with rfl | rfl
      · apply Fin.ext
        simp only [hs0, hw0]
        omega
      · apply Fin.ext
        simp only [hs1, hw1]
        omega
  · constructor
    · intro hh; cases hh
    · rintro ⟨he, hc⟩
      exfalso
      apply h
      intro a
      rcases fin2_cases a with rfl | rfl
      · rw [hs0, hw0, he]
        show (0 : Int) ≤ ((i 0).val : ℕ) + ((0 : ℕ) : Int) ∧ (((i 0).val : ℕ) : Int) + ((0 : ℕ) : Int) < (n : ℕ)
        omega
      · rw [hs1, hw1]
        show (0 : Int) ≤ 0 + (((j 1).val : ℕ) : Int) ∧ (0 : Int) + (((j 1).val : ℕ) : Int) < (f : ℕ)
        omega

/-- (A2), by coordinates. -/
theorem scatter2_resultIdx_ix_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (p : Fin e) (c : Fin f) (r : Fin n) (c' : Fin f) :
    d.resultIdx? (ix2 p c) idx = some (ix2 r c') ↔
      (idx (ix2 p (0 : Fin 1))).toInt = ((r.val : ℕ) : Int) ∧ c = c' := by
  rw [scatter2_resultIdx_iff d huw hiw hsd hivd idx (ix2 p c) (ix2 r c')]
  exact and_congr Iff.rfl Fin.val_inj

/-- The accumulating scatter of [e × f] updates, read at element (r, c): the operand's element plus column c
    of the update rows whose index word reads r. -/
theorem hostScatterAdd2_apply {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : (⟨2, ![n, f]⟩ : Shape).Idx → EReal) (idx : IVec ⟨2, ![e, 1]⟩ w) (upd : (⟨2, ![e, f]⟩ : Shape).Idx → EReal)
    (r : Fin n) (c : Fin f) :
    Ideal.hostScatterAdd d x idx upd (ix2 r c)
      = x (ix2 r c) + ∑ p : Fin e, if (idx (ix2 p (0 : Fin 1))).toInt = ((r.val : ℕ) : Int) then upd (ix2 p c) else 0 := by
  unfold Ideal.hostScatterAdd
  congr 1
  rw [Finset.sum_filter, sum_idx2]
  refine Finset.sum_congr rfl (fun p _ => ?_)
  simp only [scatter2_resultIdx_ix_iff d huw hiw hsd hivd]
  by_cases hT : (idx (ix2 p (0 : Fin 1))).toInt = ((r.val : ℕ) : Int)
  · simp only [hT, true_and, if_true]
    rw [Finset.sum_ite_eq']
    simp
  · simp only [hT, false_and, if_false]
    exact Finset.sum_const_zero

/-! ## The gathers with a rank-1 result -/

/-- With a rank-1 result and the index vector on axis 1 of an [e × c] array of start indices, result element p
    reads component k of its start index at (p, k). -/
theorem gather_siIdx_rank1 {s : Shape} {e c : ℕ} (d : GatherDims s ⟨2, ![e, c]⟩ ⟨1, ![e]⟩)
    (hivd : d.indexVectorDim = 1) (j : (⟨1, ![e]⟩ : Shape).Idx) (kv : ℕ) (hkv : kv < d.startIndexMap.length)
    (v : Fin c) (hv : kv = v.val) :
    d.siIdx j ⟨kv, hkv⟩ = ix2 (n0 := e) (n1 := c) (j 0) v := by
  funext b
  match b with
  | ⟨0, _⟩ =>
    unfold GatherDims.siIdx
    rw [dif_neg (by rw [hivd]; simp)]
    unfold GatherDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    unfold GatherDims.siIdx
    rw [dif_pos (by rw [hivd])]
    apply Fin.ext
    exact hv

/-- (A3) Rank-1 operand, [e × 1] start indices, rank-1 result: when the index word at (p, 0), read signed,
    is a position k < n, result element p is the operand's element k. -/
theorem gather1_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (j : (⟨1, ![e]⟩ : Shape).Idx)
    (k : ℕ) (hk : k < n) (hidx : (idx (ix2 (j 0) (0 : Fin 1))).toInt = (k : Int)) :
    Host.gather d x idx j = x (ix1 ⟨k, hk⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start j idx 0 + d.batchCoord j 0 + d.offCoord j 0 = k
  rw [GatherDims.batchCoord_eq_zero _ _ _ hb, GatherDims.offCoord_eq_zero _ _ _ hkp]
  unfold GatherDims.start
  rw [dif_pos hm, gather_siIdx_rank1 d hivd j _ _ (0 : Fin 1) hi, hidx, hsl]
  show min (k : Int).toNat (n - 1) + 0 + 0 = k
  omega

/-- (A3), by coordinates. -/
theorem gather1_ix_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e)
    (k : ℕ) (hk : k < n) (hidx : (idx (ix2 p (0 : Fin 1))).toInt = (k : Int)) :
    Host.gather d x idx (ix1 p) = x (ix1 ⟨k, hk⟩) :=
  gather1_apply d hcoll hob hsim hivd x idx (ix1 p) k hk hidx

/-- (A5) [n × m] operand, [e × 2] start indices, rank-1 result, both operand axes collapsed and
    start-indexed: when the index words at (p, 0) and (p, 1), read signed, are a row r < n and a column
    c < m, result element p is the operand's element (r, c). -/
theorem gatherPair_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (j : (⟨1, ![e]⟩ : Shape).Idx)
    (r c : ℕ) (hr : r < n) (hc : c < m)
    (hidx0 : (idx (ix2 (j 0) (0 : Fin 2))).toInt = (r : Int))
    (hidx1 : (idx (ix2 (j 0) (1 : Fin 2))).toInt = (c : Int)) :
    Host.gather d x idx j = x (ix2 ⟨r, hr⟩ ⟨c, hc⟩) := by
  unfold Host.gather
  congr 1
  funext a
  apply Fin.ext
  have hb : ∀ a : Fin 2, a ∉ d.operandBatchingDims := by intro a; rw [hob]; exact List.not_mem_nil
  have hkp : ∀ a : Fin 2, a ∉ d.sKept := by
    intro a; rw [GatherDims.mem_sKept, hcoll]
    rcases fin2_cases a with rfl | rfl <;> simp
  show d.start j idx a + d.batchCoord j a + d.offCoord j a = (ix2 (⟨r, hr⟩ : Fin n) (⟨c, hc⟩ : Fin m) a).val
  rw [GatherDims.batchCoord_eq_zero _ _ _ (hb a), GatherDims.offCoord_eq_zero _ _ _ (hkp a)]
  rcases fin2_cases a with rfl | rfl
  · have hm : (0 : Fin 2) ∈ d.startIndexMap := by rw [hsim]; simp
    have hsl : d.sliceSizes 0 = 1 := d.slice_collapsed 0 (by rw [hcoll]; simp)
    have hi : List.idxOf (0 : Fin 2) d.startIndexMap = (0 : Fin 2).val := by rw [hsim]; simp
    unfold GatherDims.start
    rw [dif_pos hm, gather_siIdx_rank1 d hivd j _ _ (0 : Fin 2) hi, hidx0, hsl]
    show min (r : Int).toNat (n - 1) + 0 + 0 = r
    omega
  · have hm : (1 : Fin 2) ∈ d.startIndexMap := by rw [hsim]; simp
    have hsl : d.sliceSizes 1 = 1 := d.slice_collapsed 1 (by rw [hcoll]; simp)
    have hi : List.idxOf (1 : Fin 2) d.startIndexMap = (1 : Fin 2).val := by rw [hsim]; simp [List.idxOf_cons]
    unfold GatherDims.start
    rw [dif_pos hm, gather_siIdx_rank1 d hivd j _ _ (1 : Fin 2) hi, hidx1, hsl]
    show min (c : Int).toNat (m - 1) + 0 + 0 = c
    omega

/-- (A5), by coordinates. -/
theorem gatherPair_ix_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (p : Fin e)
    (r c : ℕ) (hr : r < n) (hc : c < m)
    (hidx0 : (idx (ix2 p (0 : Fin 2))).toInt = (r : Int))
    (hidx1 : (idx (ix2 p (1 : Fin 2))).toInt = (c : Int)) :
    Host.gather d x idx (ix1 p) = x (ix2 ⟨r, hr⟩ ⟨c, hc⟩) :=
  gatherPair_apply d hcoll hob hsim hivd x idx (ix1 p) r c hr hc hidx0 hidx1

/-! ## The gather with an offset axis -/

/-- Result element (p, c) reads its one start-index component at (p, 0). -/
theorem gather2_siIdx {s : Shape} {e f : ℕ} (d : GatherDims s ⟨2, ![e, 1]⟩ ⟨2, ![e, f]⟩)
    (hod : d.offsetDims = [1]) (hivd : d.indexVectorDim = 1) (j : (⟨2, ![e, f]⟩ : Shape).Idx)
    (c : Fin d.startIndexMap.length) :
    d.siIdx j c = ix2 (n0 := e) (n1 := 1) (j 0) 0 := by
  have hbd : ∀ x ∈ d.batchDims, x.val = 0 :=
    kept_snd rfl _ (by rw [hod]; exact ⟨1, List.mem_singleton.mpr rfl, rfl⟩)
  funext b
  match b with
  | ⟨0, _⟩ =>
    unfold GatherDims.siIdx
    rw [dif_neg (by rw [hivd]; simp)]
    unfold GatherDims.siCoord
    apply Fin.ext
    simp only [Fin.val_cast]
    exact coord_of_val0 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A4) [n × f] operand, [e × 1] start indices, [e × f] result, the second axis an offset axis of full
    width: when the index word at (p, 0), read signed, is a row k < n, result element (p, c) is the
    operand's element (k, c). -/
theorem gather2_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (j : (⟨2, ![e, f]⟩ : Shape).Idx)
    (k : ℕ) (hk : k < n) (hidx : (idx (ix2 (j 0) (0 : Fin 1))).toInt = (k : Int)) :
    Host.gather d x idx j = x (ix2 ⟨k, hk⟩ ⟨(j 1).val, idx2_lt1 j⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨k, hk⟩ : Fin n) (⟨(j 1).val, idx2_lt1 j⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hidx, hsl]
    show min (k : Int).toNat (n - 1) + 0 + 0 = k
    omega
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 1).val
    have hall : ∀ x ∈ d.offsetDims, x.val = 1 := by rw [hod]; simp
    rw [coord_of_val1 j _ (hall _ (List.getElem_mem _))]
    omega

/-- (A4), by coordinates. -/
theorem gather2_ix_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f)
    (k : ℕ) (hk : k < n) (hidx : (idx (ix2 p (0 : Fin 1))).toInt = (k : Int)) :
    Host.gather d x idx (ix2 p c) = x (ix2 ⟨k, hk⟩ c) :=
  gather2_apply d hod hcoll hob hsim hivd x idx (ix2 p c) k hk hidx

end Cert.Gcn.IndexMaps

end
-- ==== Proof.RefValue.lean ====
/-
  The reference's run, read: what its result holds.

  The reference scatters ones and the samples by their labels into 1000 classes, accumulating: a sample whose
  label word, read as a signed integer, is a class number r below 1000 is added to class r, and any other
  label lands outside the 1000 classes and contributes nothing.  So class r's count is the number of samples
  labelled r and its sum the sum of those samples: plain sums over all 524288 samples of the sample, or of
  one, where the label word is r and of zero elsewhere.  The rest of the reference is the same update of the
  centers the kernel's program applies.
-/
import proofs.«404732_j30829275250754_3_alg».proof.Proof.RefRun
import proofs.«404732_j30829275250754_3_alg».proof.Proof.Tail
import proofs.«404732_j30829275250754_3_alg».proof.Proof.LibIndexMaps
import proofs.«404732_j30829275250754_3_alg».proof.Proof.Spec
import Idealize.ShloMosaic.Lib.Pipeline.Value
import Idealize.ShloMosaic.Lib.StableHlo.Predicate
import Idealize.ShloMosaic.PureOps.Ideal.Laws

noncomputable section

namespace Cert.ReferenceIdeal.RefValue

open Idealize.ShloMosaic Idealize.ShloMosaic.TcCoe Idealize.ShloMosaic.ValueIdx Idealize.SL.Sem
open Cert.ReferenceIdeal Cert.ReferenceIdeal.Facts₀ Cert.Centers Cert.Gcn.IndexMaps
open Cert.KernelIdeal.Tail (tail)
open scoped BigOperators

variable {F : FTy → Type} [FloatOps F]

/-- The reference's per-class sums: the samples scattered by their labels into zeros, accumulating. -/
def sumsR (Y : (⟨S524288, .i32⟩ : BufTy).Contents (Elt F)) (X : (⟨S524288x128, .f32⟩ : BufTy).Contents (Elt F)) :
    (⟨S1000x128, .f32⟩ : BufTy).Contents (Elt F) :=
  Host.scatterAdd scatter_S1000x128_S524288x1_S524288x128_1_0_0_1
    (broadcastInDim S1000x128 ![] bcast_S_S1000x128 (constant S_ .f32 0x00000000#32))
    (broadcastInDim S524288x1 ![0] bcast_S524288_S524288x1_0 Y) X

/-- The reference's per-class counts: ones scattered by the labels into zeros, accumulating. -/
def countsR (Y : (⟨S524288, .i32⟩ : BufTy).Contents (Elt F)) : (⟨S1000, .f32⟩ : BufTy).Contents (Elt F) :=
  Host.scatterAdd scatter_S1000_S524288x1_S524288_n_0_0_1
    (broadcastInDim S1000 ![] bcast_S_S1000 (constant S_ .f32 0x00000000#32))
    (broadcastInDim S524288x1 ![0] bcast_S524288_S524288x1_0 Y)
    (broadcastInDim S524288 ![] bcast_S_S524288 (constant S_ .f32 0x3F800000#32))

/-- The reference's result as a function of the arguments. -/
def result (m : (ℓ : Loc nD τ sig) → Buf (Elt F) ℓ) (c : Dev nD) : Buf (Elt F) ((c.tc : Thread nD τ).loc main_v22) :=
  tail (sumsR (m ((c.tc : Thread nD τ).loc main_arg1)) (m ((c.tc : Thread nD τ).loc main_arg0)))
    (countsR (m ((c.tc : Thread nD τ).loc main_arg1)))
    (m ((c.tc : Thread nD τ).loc main_arg2)) (m ((c.tc : Thread nD τ).loc main_arg3))

/-- Every weakly fair execution of the reference ends with the result at `result` and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2⟩) (Cert.ReferenceIdeal.RunP.run m ρ)

/-- A label word reads, as a signed integer, the class number r < 1000 exactly when it is the word r. -/
theorem word_iff (w : BitVec 32) (r : Fin 1000) : w.toInt = ((r.val : ℕ) : Int) ↔ w = BitVec.ofNat 32 r.val := by
  have hr : r.val < 2 ^ 31 := by have := r.isLt; omega
  constructor
  · intro h
    apply BitVec.eq_of_toInt_eq
    rw [h, StableHlo.Predicate.toInt_ofNat_small r.val hr]
  · intro h
    rw [h, StableHlo.Predicate.toInt_ofNat_small r.val hr]

/-- The labels made a column read, at (n, 0), label n. -/
theorem labels_apply (Y : IVec S524288 32) (n : Fin 524288) :
    broadcastInDim S524288x1 ![0] bcast_S524288_S524288x1_0 Y (ix2 n (0 : Fin 1)) = Y (ix1 n) :=
  broadcastInDim_apply ![0] bcast_S524288_S524288x1_0 Y _ _ (fun ax => by
    match ax with
    | ⟨0, _⟩ => rfl)

/-- Class r's sum at column e: the sum over all samples of the sample's column e where its label word is r. -/
theorem sumsR_apply (Y : IVec S524288 32) (X : FVec Ideal S524288x128 .f32) (r : Fin 1000) (e : Fin 128) :
    sumsR (F := Ideal) Y X (ix2 r e) = ∑ n : Fin 524288, if Y (ix1 n) = BitVec.ofNat 32 r.val then X (ix2 n e) else 0 := by
  unfold sumsR
  show Ideal.hostScatterAdd scatter_S1000x128_S524288x1_S524288x128_1_0_0_1 _ _ _ (ix2 r e) = _
  rw [hostScatterAdd2_apply _ rfl rfl rfl rfl]
  have hz : broadcastInDim S1000x128 ![] bcast_S_S1000x128 (constant (F := Ideal) S_ .f32 0x00000000#32) (ix2 r e) = 0 := by
    rw [broadcastInDim_apply ![] _ _ _ ix0 (fun a => a.elim0)]
    exact Ideal.ofBits_zero_f32
  rw [hz, zero_add]
  refine Finset.sum_congr rfl fun n _ => ?_
  rw [labels_apply]
  exact if_congr (word_iff _ r) rfl rfl

/-- The f32 word 0x3F800000 is one. -/
theorem one_f32 : Ideal.ofBits .f32 0x3F800000#32 = 1 := IdealRules.sign_bit.ideal_onePat .f32

/-- Class r's count: the number of samples whose label word is r, as a sum of ones. -/
theorem countsR_apply (Y : IVec S524288 32) (r : Fin 1000) :
    countsR (F := Ideal) Y (ix1 r) = ∑ n : Fin 524288, if Y (ix1 n) = BitVec.ofNat 32 r.val then 1 else 0 := by
  unfold countsR
  show Ideal.hostScatterAdd scatter_S1000_S524288x1_S524288_n_0_0_1 _ _ _ (ix1 r) = _
  rw [hostScatterAdd1_apply _ rfl rfl rfl rfl]
  have hz : broadcastInDim S1000 ![] bcast_S_S1000 (constant (F := Ideal) S_ .f32 0x00000000#32) (ix1 r) = 0 := by
    rw [broadcastInDim_apply ![] _ _ _ ix0 (fun a => a.elim0)]
    exact Ideal.ofBits_zero_f32
  rw [hz, zero_add]
  refine Finset.sum_congr rfl fun n _ => ?_
  rw [labels_apply]
  have ho : broadcastInDim S524288 ![] bcast_S_S524288 (constant (F := Ideal) S_ .f32 0x3F800000#32) (ix1 n) = 1 := by
    rw [broadcastInDim_apply ![] _ _ _ ix0 (fun a => a.elim0)]
    exact one_f32
  rw [ho]
  exact if_congr (word_iff _ r) rfl rfl

end Cert.ReferenceIdeal.RefValue

end
-- ==== Proof.Bridge.lean ====
/-
  The kernel's per-class sums and counts are the reference's.

  The kernel's sum for class r < 1000 at column e is the two workers' last accumulators at (r, e), added: by the
  count of blocks and rows this is the sum over all 524288 samples of the weight of the sample's label on
  class r times the sample's column e, that is, of the sample's column e where the label word is r and of
  zero elsewhere — the reference's scatter sum.  The kernel's count is the same with the widening ones in
  place of the sample's entry — the reference's scatter of ones.  A weight is one or zero, and on the extended
  reals one times x is x and zero times x is zero, whatever x.
-/
import proofs.«404732_j30829275250754_3_alg».proof.Proof.Tail
import proofs.«404732_j30829275250754_3_alg».proof.Proof.Spec
import proofs.«404732_j30829275250754_3_alg».proof.Proof.Accum
import proofs.«404732_j30829275250754_3_alg».proof.Proof.RefValue
import Idealize.ShloMosaic.Lib.Pipeline.Value
import Idealize.ShloMosaic.Lib.ValueLayout
import Idealize.ShloMosaic.PureOps.Ideal.Laws

noncomputable section

namespace Cert.KernelIdeal.Sums

open Idealize.ShloMosaic Idealize.ShloMosaic.ValueIdx
open Cert.KernelIdeal Cert.KernelIdeal.Facts₀ Cert.KernelIdeal.Tail Cert.Centers Cert.KernelIdeal.Accum
open scoped BigOperators

/-- The kernel's sum for class r at column e: the two workers' parts at (r, e), added. -/
theorem sumsOf_apply (A : (⟨3, ![2, 1024, 128]⟩ : Shape).Idx → EReal) (r : Fin 1000) (e : Fin 128) :
    sumsOf (F := Ideal) A (ix2 r e) = ∑ w : Fin 2, A (ix3 w ⟨r.val, by have := r.isLt; omega⟩ e) := by
  unfold sumsOf
  refine (extractStridedSlice_apply ![0, 0] _ slices_S1024x128_S1000x128_0_0 (ix2 r e)
    (ix2 (⟨r.val, by have := r.isLt; omega⟩ : Fin 1024) e) (fun a => ?_)).trans ?_
  · match a with
    | ⟨0, _⟩ => show r.val = 0 + r.val; omega
    | ⟨1, _⟩ => show e.val = 0 + e.val; omega
  · show Ideal.hostReduceAdd reducesTo_S2x1024x128_S1024x128_d0 A _ _ = _
    rw [Ideal.hostReduceAdd_single reducesTo_S2x1024x128_S1024x128_d0 (by decide)]
    rw [show constant (F := Ideal) S_ .f32 0x00000000#32 (Shape.Idx.first h_S_) = (0 : EReal) from Ideal.ofBits_zero_f32, zero_add]
    refine Finset.sum_congr rfl fun w _ => congrArg A (funext fun a => Fin.ext ?_)
    match a with
    | ⟨0, _⟩ => rfl
    | ⟨1, _⟩ => rfl
    | ⟨2, _⟩ => rfl

/-- The kernel's count for class r: the two workers' parts at (r, 0), added. -/
theorem countsOf_apply (B : (⟨3, ![2, 1024, 1]⟩ : Shape).Idx → EReal) (r : Fin 1000) :
    countsOf (F := Ideal) B (ix1 r) = ∑ w : Fin 2, B (ix3 w ⟨r.val, by have := r.isLt; omega⟩ (0 : Fin 1)) := by
  unfold countsOf
  refine (shapeCast_apply _ shapeCasts_S1000x1_S1000 (ix1 r) (ix2 r (0 : Fin 1)) (by
    rw [Shape.rowMajor_val_two, Shape.rowMajor_val_one]
    show r.val * 1 + 0 = r.val
    omega)).trans ?_
  refine (extractStridedSlice_apply ![0, 0] _ slices_S1024x1_S1000x1_0_0 (ix2 r (0 : Fin 1))
    (ix2 (⟨r.val, by have := r.isLt; omega⟩ : Fin 1024) (0 : Fin 1)) (fun a => ?_)).trans ?_
  · match a with
    | ⟨0, _⟩ => show r.val = 0 + r.val; omega
    | ⟨1, _⟩ => rfl
  · show Ideal.hostReduceAdd reducesTo_S2x1024x1_S1024x1_d0 B _ _ = _
    rw [Ideal.hostReduceAdd_single reducesTo_S2x1024x1_S1024x1_d0 (by decide)]
    rw [show constant (F := Ideal) S_ .f32 0x00000000#32 (Shape.Idx.first h_S_) = (0 : EReal) from Ideal.ofBits_zero_f32, zero_add]
    refine Finset.sum_congr rfl fun w _ => congrArg B (funext fun a => Fin.ext ?_)
    match a with
    | ⟨0, _⟩ => rfl
    | ⟨1, _⟩ => rfl
    | ⟨2, _⟩ => rfl

/-- The kernel's per-class sums are the reference's. -/
theorem sums_eq (X : (⟨2, ![524288, 128]⟩ : Shape).Idx → EReal) (Y : (⟨1, ![524288]⟩ : Shape).Idx → BitVec 32) :
    sumsOf (F := Ideal) (sumsArr X Y) = Cert.ReferenceIdeal.RefValue.sumsR (F := Ideal) Y X := by
  funext j
  obtain ⟨r, e, rfl⟩ : ∃ (r : Fin 1000) (e : Fin 128), j = ix2 r e := ⟨j 0, j 1, eq_ix2 j⟩
  rw [sumsOf_apply, Cert.ReferenceIdeal.RefValue.sumsR_apply]
  have hr : r.val < 1024 := by have := r.isLt; omega
  have he : e.val < 256 := by have := e.isLt; omega
  have h1 : ∀ w : Fin 2, sumsArr X Y (ix3 w ⟨r.val, hr⟩ e) = acc X Y (w.val * 64 + 63) ⟨r.val, hr⟩ ⟨e.val, he⟩ :=
    fun w => sumsArr_apply X Y _ _ _ _ rfl rfl rfl
  simp only [h1]
  rw [acc_total]
  refine Finset.sum_congr rfl fun n _ => ?_
  unfold hot aug
  rw [dif_pos e.isLt]
  split
  · rw [one_mul]
  · rw [zero_mul]

/-- The kernel's per-class counts are the reference's. -/
theorem counts_eq (X : (⟨2, ![524288, 128]⟩ : Shape).Idx → EReal) (Y : (⟨1, ![524288]⟩ : Shape).Idx → BitVec 32) :
    countsOf (F := Ideal) (cntArr X Y) = Cert.ReferenceIdeal.RefValue.countsR (F := Ideal) Y := by
  funext j
  obtain ⟨r, rfl⟩ : ∃ r : Fin 1000, j = ix1 r := ⟨j 0, eq_ix1 j⟩
  rw [countsOf_apply, Cert.ReferenceIdeal.RefValue.countsR_apply]
  have hr : r.val < 1024 := by have := r.isLt; omega
  have h1 : ∀ w : Fin 2, cntArr X Y (ix3 w ⟨r.val, hr⟩ (0 : Fin 1)) = acc X Y (w.val * 64 + 63) ⟨r.val, hr⟩ ⟨128, by decide⟩ :=
    fun w => cntArr_apply X Y _ _ _ rfl rfl
  simp only [h1]
  rw [acc_total]
  refine Finset.sum_congr rfl fun n _ => ?_
  unfold hot aug
  rw [dif_neg (by decide)]
  split
  · rw [one_mul]
  · rw [zero_mul]

end Cert.KernelIdeal.Sums

end
-- ==== Proof.lean ====
/-
  Running per-class centers: a Pallas kernel against its jnp reference, equal over the extended reals.

  Both programs take 524288 samples of 128 numbers, a label word per sample, 1000 old centers and the number
  n of batches tracked, and return the updated centers: a class with at least one sample takes
  (mean + center · n) / (n + 1), where the mean is the class's sum over its samples divided by their number;
  a class without samples keeps its center.

  The reference gets the sums and counts by an accumulating scatter by label.  The kernel gets them from a
  matrix product per block of 4096 samples: the one-hot matrix of the labels against 1024 class numbers,
  transposed, times the samples widened by a block of ones, so that the same product gives the sums (first
  128 columns) and the counts (the other columns).  Two workers each add 64 blocks into an accumulator and
  write it out after their last block; the host adds the two parts and keeps the first 1000 classes.

  At the ideal instance both sums are the sum, over all samples, of the sample where its label word is the
  class's number and of zero elsewhere (a label outside 0 … 999 counts for no class on either side: the
  scatter drops it, the one-hot's columns 1000 … 1023 are cut off, and no other column matches it); the
  counts likewise with one for the sample.  Only the order of addition differs, and addition on the extended
  reals is commutative and associative, so the precondition is never opened.  The update of the centers is
  the same operations in both programs, carried as one function.

  The frames of the two kernel programs are the generated frame certificates; the reference's frame is its
  run with the result dropped; the idealization rewrote nothing, so `preserves` is trivial.
-/
import proofs.«404732_j30829275250754_3_alg».proof.Defs
import proofs.«404732_j30829275250754_3_alg».proof.Proof.Gen.Kernel
import proofs.«404732_j30829275250754_3_alg».proof.Proof.Gen.Kernel.Skeleton
import proofs.«404732_j30829275250754_3_alg».proof.Proof.Gen.Kernel.Launch
import proofs.«404732_j30829275250754_3_alg».proof.Proof.Gen.Kernel.Points
import proofs.«404732_j30829275250754_3_alg».proof.Proof.Gen.Kernel.Frame
import proofs.«404732_j30829275250754_3_alg».proof.Proof.Gen.KernelIdeal
import proofs.«404732_j30829275250754_3_alg».proof.Proof.Gen.KernelIdeal.Skeleton
import proofs.«404732_j30829275250754_3_alg».proof.Proof.Gen.KernelIdeal.Launch
import proofs.«404732_j30829275250754_3_alg».proof.Proof.Gen.KernelIdeal.Points
import proofs.«404732_j30829275250754_3_alg».proof.Proof.Gen.KernelIdeal.Frame
import proofs.«404732_j30829275250754_3_alg».proof.Proof.Gen.ReferenceIdeal
import proofs.«404732_j30829275250754_3_alg».proof.Proof.Gen.Pre_finite_inputs
import proofs.«404732_j30829275250754_3_alg».proof.Proof.KernelValue
import proofs.«404732_j30829275250754_3_alg».proof.Proof.RefValue
import proofs.«404732_j30829275250754_3_alg».proof.Proof.Bridge
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- From memories agreeing on the arguments both idealized programs end with the same centers: the kernel's
    per-class sums and counts are the reference's, and the update applied to them is one function. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.RefValue.run (F := Ideal) m' ρ')
  show Cert.ReferenceIdeal.RefValue.result m' c = Cert.KernelIdeal.Result.result m c
  unfold Cert.ReferenceIdeal.RefValue.result Cert.KernelIdeal.Result.result
  rw [(hagree c).1, (hagree c).2.1, (hagree c).2.2.1, (hagree c).2.2.2,
    Cert.KernelIdeal.Sums.sums_eq, Cert.KernelIdeal.Sums.counts_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
